-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S256x1024 : Shape := ⟨2, ![256, 1024]⟩
abbrev S512x64x16 : Shape := ⟨3, ![512, 64, 16]⟩
abbrev S512x16x64 : Shape := ⟨3, ![512, 16, 64]⟩
abbrev S512x64 : Shape := ⟨2, ![512, 64]⟩
abbrev S128x16x64 : Shape := ⟨3, ![128, 16, 64]⟩
abbrev S128x64 : Shape := ⟨2, ![128, 64]⟩
abbrev S128x128 : Shape := ⟨2, ![128, 128]⟩
abbrev S128x128x64 : Shape := ⟨3, ![128, 128, 64]⟩
abbrev S128x1x64 : Shape := ⟨3, ![128, 1, 64]⟩
abbrev S1x128x64 : Shape := ⟨3, ![1, 128, 64]⟩
abbrev S128x128x1 : Shape := ⟨3, ![128, 128, 1]⟩
abbrev S512x1088 : Shape := ⟨2, ![512, 1088]⟩

abbrev nBuf : Space → Nat
  | .hbm => 8
  | .vmem => 11
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S512x16x64, .f32⟩
  | .hbm, ⟨6, _⟩ => ⟨S512x64, .f32⟩
  | .hbm, ⟨7, _⟩ => ⟨S512x1088, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S256x1024, .f32⟩
  | .local _ .vmem, ⟨4, _⟩ => ⟨S256x1024, .f32⟩
  | .local _ .vmem, ⟨5, _⟩ => ⟨S128x16x64, .f32⟩
  | .local _ .vmem, ⟨6, _⟩ => ⟨S128x16x64, .f32⟩
  | .local _ .vmem, ⟨7, _⟩ => ⟨S128x16x64, .f32⟩
  | .local _ .vmem, ⟨8, _⟩ => ⟨S128x16x64, .f32⟩
  | .local _ .vmem, ⟨9, _⟩ => ⟨S128x64, .f32⟩
  | .local _ .vmem, ⟨10, _⟩ => ⟨S128x64, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x16x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x64x16_S1024x1024 : S1024x64x16.ShapeCasts S1024x1024
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x64x16 : S512x1024.ShapeCasts S512x64x16
  transposes_S512x64x16_S512x16x64_0_2_1 : S512x64x16.Transposes [0, 2, 1] S512x16x64
  inb_S128x64_S128x64_0_0 : ∀ a, (![0, 0] : Fin 2 → Nat) a + S128x64.size a ≤ S128x64.size a
  h_S128x64 : 0 < S128x64.numel
  iota_S128x128_d0_w32 : S128x128.Iotas .tc 32 [0]
  iota_S128x128_d1_w32 : S128x128.Iotas .tc 32 [1]
  natLt_1_32 : 1 < 32
  inb_S128x16x64_S128x16x64_0_0_0 : ∀ a, (![0, 0, 0] : Fin 3 → Nat) a + S128x16x64.size a ≤ S128x16x64.size a
  h_S128x16x64 : 0 < S128x16x64.numel
  shapeCasts_S128x16x64_S128x16x64 : S128x16x64.ShapeCasts S128x16x64
  slices_S128x16x64_o0_0_0_S128x1x64 : S128x16x64.Slices ![0, 0, 0] S128x1x64
  shapeCasts_S128x1x64_S128x64 : S128x1x64.ShapeCasts S128x64
  shapeCasts_S128x64_S128x1x64 : S128x64.ShapeCasts S128x1x64
  shapeCasts_S128x64_S1x128x64 : S128x64.ShapeCasts S1x128x64
  broadcasts_S128x1x64_S128x128x64 : S128x1x64.Broadcasts S128x128x64
  broadcasts_S1x128x64_S128x128x64 : S1x128x64.Broadcasts S128x128x64
  slices_S128x16x64_o0_1_0_S128x1x64 : S128x16x64.Slices ![0, 1, 0] S128x1x64
  slices_S128x16x64_o0_2_0_S128x1x64 : S128x16x64.Slices ![0, 2, 0] S128x1x64
  slices_S128x16x64_o0_3_0_S128x1x64 : S128x16x64.Slices ![0, 3, 0] S128x1x64
  slices_S128x16x64_o0_4_0_S128x1x64 : S128x16x64.Slices ![0, 4, 0] S128x1x64
  slices_S128x16x64_o0_5_0_S128x1x64 : S128x16x64.Slices ![0, 5, 0] S128x1x64
  slices_S128x16x64_o0_6_0_S128x1x64 : S128x16x64.Slices ![0, 6, 0] S128x1x64
  slices_S128x16x64_o0_7_0_S128x1x64 : S128x16x64.Slices ![0, 7, 0] S128x1x64
  slices_S128x16x64_o0_8_0_S128x1x64 : S128x16x64.Slices ![0, 8, 0] S128x1x64
  slices_S128x16x64_o0_9_0_S128x1x64 : S128x16x64.Slices ![0, 9, 0] S128x1x64
  slices_S128x16x64_o0_10_0_S128x1x64 : S128x16x64.Slices ![0, 10, 0] S128x1x64
  slices_S128x16x64_o0_11_0_S128x1x64 : S128x16x64.Slices ![0, 11, 0] S128x1x64
  slices_S128x16x64_o0_12_0_S128x1x64 : S128x16x64.Slices ![0, 12, 0] S128x1x64
  slices_S128x16x64_o0_13_0_S128x1x64 : S128x16x64.Slices ![0, 13, 0] S128x1x64
  slices_S128x16x64_o0_14_0_S128x1x64 : S128x16x64.Slices ![0, 14, 0] S128x1x64
  slices_S128x16x64_o0_15_0_S128x1x64 : S128x16x64.Slices ![0, 15, 0] S128x1x64
  shapeCasts_S128x128_S128x128x1 : S128x128.ShapeCasts S128x128x1
  broadcasts_S128x128x1_S128x128x64 : S128x128x1.Broadcasts S128x128x64
  shapeCasts_S128x64_S128x64 : S128x64.ShapeCasts S128x64
  reduces_S128x128x64_S128x64 : S128x128x64.Reduces [1] S128x64
  concatenates_S512x1024_S512x64_S512x1088_d1 : Shape.Concatenates [S512x1024, S512x64] S512x1088 1
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S512x1024.size a
  hwx0_0 : ∀ i : grid0.Coords, EltTy.bits .f32 = 32 ∨ (Rect.block (s := S512x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S512x1024.size a
  hwx0_2 : ∀ i : grid0.Coords, EltTy.bits .f32 = 32 ∨ (Rect.block (s := S512x1024) S256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16x64.size a ≤ S512x16x64.size a
  hwx1_0 : ∀ i : grid1.Coords, EltTy.bits .f32 = 32 ∨ (Rect.block (s := S512x16x64) S128x16x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x16x64.size a ≤ S512x16x64.size a
  hwx1_1 : ∀ i : grid1.Coords, EltTy.bits .f32 = 32 ∨ (Rect.block (s := S512x16x64) S128x16x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S512x64.size a
  hwx1_2 : ∀ i : grid1.Coords, EltTy.bits .f32 = 32 ∨ (Rect.block (s := S512x64) S128x64.size (cc1_transform_2 i) (hinb1_2 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x16x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S1x512x64x16 : Shape := ⟨4, ![1, 512, 64, 16]⟩
abbrev S512x1x64x16 : Shape := ⟨4, ![512, 1, 64, 16]⟩
abbrev S512x512x64x16 : Shape := ⟨4, ![512, 512, 64, 16]⟩
abbrev S_ : Shape := ⟨0, ![]⟩
abbrev S512x512x64 : Shape := ⟨3, ![512, 512, 64]⟩
abbrev S512x512 : Shape := ⟨2, ![512, 512]⟩
abbrev S512x512x1 : Shape := ⟨3, ![512, 512, 1]⟩
abbrev S512x64 : Shape := ⟨2, ![512, 64]⟩
abbrev S512x1088 : Shape := ⟨2, ![512, 1088]⟩

abbrev nBuf : Space → Nat
  | .hbm => 31
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S1x512x64x16, .f32⟩
  | .hbm, ⟨6, _⟩ => ⟨S512x1x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512x1, .f32⟩
  | .hbm, ⟨26, _⟩ => ⟨S512x512x64, .f32⟩
  | .hbm, ⟨27, _⟩ => ⟨S512x512x64, .f32⟩
  | .hbm, ⟨28, _⟩ => ⟨S_, .f32⟩
  | .hbm, ⟨29, _⟩ => ⟨S512x64, .f32⟩
  | .hbm, ⟨30, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S1x512x64x16_1_2_3 : S512x64x16.BroadcastsInDim S1x512x64x16 (![1, 2, 3] : Fin 3 → Fin S1x512x64x16.rank)
  bcast_S512x64x16_S512x1x64x16_0_2_3 : S512x64x16.BroadcastsInDim S512x1x64x16 (![0, 2, 3] : Fin 3 → Fin S512x1x64x16.rank)
  bcast_S1x512x64x16_S512x512x64x16_0_1_2_3 : S1x512x64x16.BroadcastsInDim S512x512x64x16 (![0, 1, 2, 3] : Fin 4 → Fin S512x512x64x16.rank)
  bcast_S512x1x64x16_S512x512x64x16_0_1_2_3 : S512x1x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512x1_S512x512x64_0_1_2 : S512x512x1.BroadcastsInDim S512x512x64 (![0, 1, 2] : Fin 3 → Fin S512x512x64.rank)
  reducesTo_S512x512x64_S512x64_d1 : S512x512x64.ReducesTo [1] S512x64
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.KB.Region0.lean ====
/-
  Region 0 of the program: the projection `x · W` computed block by block. The grid has two points; point `t` reads
  rows `256 t … 256 t + 255` of `x` (window 0) and the whole weight matrix `W` (window 1, fetched once), and stores
  the product of the two blocks into rows `256 t … 256 t + 255` of the result (window 2). Stated at a parameter `V`,
  the contents of the core's buffers when the region is entered: what each staging buffer holds after the body at a
  point, the body's triple, and the pipeline's proof data with its body obligation.
-/
import proofs.«156996_j33414845562989_1_alg».proof.Proof.Gen.Kernel.Launch
import proofs.«156996_j33414845562989_1_alg».proof.Proof.Gen.Kernel.Skeleton
import proofs.«156996_j33414845562989_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetched it: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of the row window and of the result window, and the whole weight matrix. -/
abbrev rX : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What the body leaves in the result window's staging buffer: its one store, the product of the two loaded blocks. -/
def out0_2 (x0 : Vec F S256x1024 .f32) (x1 : Vec F S1024x1024 .f32) : Vec F S256x1024 .f32 :=
  View.canon [⟨rX, k0_pay1 (View.ld x0 rX) (View.ld x1 rW)⟩]

/-- The one store covers the buffer. -/
theorem cover0_2 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

set_option maxHeartbeats 1000000 in
/-- The body on whole staging memrefs — the two inputs at contents `x0`, `x1`, the output at anything — runs to the
    inputs as they were and the output at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
/-
  Region 1 of the program: for every pair of rows `(a, b)` and every feature `o`, the weight `exp (-‖M a · o − M b · o‖₁)`
  off the diagonal, summed over `b`. The grid is 4 × 4: point `(i, kv)` reads rows `128 i …` of `M` through window 0,
  rows `128 kv …` of the same array through window 1, and adds the block's row sums into the result window's block
  `i`, which it first clears when `kv = 0`; the block is written back after `kv = 3`. Stated at a parameter `V`, the
  contents of the core's buffers when the region is entered.
-/
import proofs.«156996_j33414845562989_1_alg».proof.Proof.Gen.Kernel.Launch
import proofs.«156996_j33414845562989_1_alg».proof.Proof.Gen.Kernel.Skeleton
import proofs.«156996_j33414845562989_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator exactly when the second grid coordinate is zero. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 4 = 0 :=
  (by decide +kernel : ∀ t : Fin grid1.N, cond1 (grid1.coords t) ↔ t.val % 4 = 0)

/-- The whole blocks of the windows. -/
abbrev rM : Rect S128x16x64 := Rect.unit (s := S128x16x64) ![0, 0, 0] S128x16x64.size inb_S128x16x64_S128x16x64_0_0_0
abbrev rO : Rect S128x64 := Rect.unit (s := S128x64) ![0, 0] S128x64.size inb_S128x64_S128x64_0_0

/-- One step of the accumulation: from the two row blocks `x0`, `x1` at grid coordinates `i` and the accumulator `a`,
    the accumulator plus the block's masked row sums. -/
def acc1 (i : grid1.Coords) (x0 x1 : Vec F S128x16x64 .f32) (a : Vec F S128x64 .f32) : Vec F S128x64 .f32 :=
  k1_pay1 (k1_pay3 (F := F) i) (k1_pay4 x0) (k1_pay5 x1)
    (k1_pay11 (k1_pay4 x0) (k1_pay5 x1) (k1_pay9 (k1_pay4 x0) (k1_pay5 x1) (k1_pay6 x0 x1) (k1_pay7 x1) (k1_pay8 x0)) (k1_pay10 (k1_pay4 x0) (k1_pay5 x1)))
    (k1_pay12 (k1_pay4 x0)) (k1_pay13 (k1_pay5 x1)) a

theorem hz2 : (![0, 0] : Fin 2 → Nat) = fun _ => 0 := by funext a; fin_cases a <;> rfl
theorem hz3 : (![0, 0, 0] : Fin 3 → Nat) = fun _ => 0 := by funext a; fin_cases a <;> rfl

/-- After a whole-block store that follows an earlier one, the buffer reads as the later payload. -/
theorem read_writes_two_whole {sig' : RefSig} {κ' : Kind} {sp' : Space} (v : View sig' κ' sp' S128x64 .f32) (f : v.ty.Contents (Elt F))
    (w w0 : S128x64.Idx → Elt F .f32) :
    v.read (Elt F) (v.writes (Elt F) f [⟨rO, w⟩, ⟨rO, w0⟩]) = w := by
  rw [View.read_writes_eq_canon _ _ _ (fun y => ⟨⟨rO, w⟩, List.mem_cons_self .., View.mem_set_unit_zero hz2 inb_S128x64_S128x64_0_0 y⟩)]
  exact View.canon_cons_unit_zero hz2 inb_S128x64_S128x64_0_0 w _

/-- After one whole-block store the buffer reads as its payload. -/
theorem read_writes_one_whole {sig' : RefSig} {κ' : Kind} {sp' : Space} (v : View sig' κ' sp' S128x64 .f32) (f : v.ty.Contents (Elt F))
    (w : S128x64.Idx → Elt F .f32) :
    v.read (Elt F) (v.writes (Elt F) f [⟨rO, w⟩]) = w := by
  rw [View.read_writes_eq_canon _ _ _ (fun y => ⟨⟨rO, w⟩, List.mem_cons_self .., View.mem_set_unit_zero hz2 inb_S128x64_S128x64_0_0 y⟩)]
  exact View.canon_unit_zero hz2 inb_S128x64_S128x64_0_0 w

set_option maxHeartbeats 1000000 in
/-- The body where it first clears the accumulator (`kv = 0`). -/
theorem sound_kernel1_A (c : Dev nD) (E : Set ℕ) (i : grid1.Coords) (hc : cond1 i)
    (arg2 : Memref sig .tc .vmem S128x16x64 .f32) (harg2 : arg2.IsWhole)
    (arg3 : Memref sig .tc .vmem S128x16x64 .f32) (harg3 : arg3.IsWhole) (arg4 : Memref sig .tc .vmem S128x64 .f32) (harg4 : arg4.IsWhole)
    (x0 x1 : Vec F S128x16x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (acc1 i x0 x1 (k1_pay2 (F := F)))) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (read_writes_two_whole _ _ _ _).trans ?_
  unfold acc1
  rw [View.readCov_unit_zero (S := S128x64) _ hz2]
  simp only [View.readAt_eq_ld, View.ld_unit_zero (S := S128x16x64) hz3]

set_option maxHeartbeats 1000000 in
/-- The body where it adds to the accumulator the point before left (`kv ≠ 0`). -/
theorem sound_kernel1_B (c : Dev nD) (E : Set ℕ) (i : grid1.Coords) (hc : ¬cond1 i)
    (arg2 : Memref sig .tc .vmem S128x16x64 .f32) (harg2 : arg2.IsWhole)
    (arg3 : Memref sig .tc .vmem S128x16x64 .f32) (harg3 : arg3.IsWhole) (arg4 : Memref sig .tc .vmem S128x64 .f32) (harg4 : arg4.IsWhole)
    (x0 x1 : Vec F S128x16x64 .f32) (xo : Vec F S128x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (acc1 i x0 x1 xo)) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (read_writes_one_whole _ _ _).trans ?_
  unfold acc1
  simp only [View.readAt_eq_ld, View.ld_unit_zero (S := S128x16x64) hz3, View.ld_unit_zero (S := S128x64) hz2]

/-! ## What the result window's buffer holds after each point -/

/-- The accumulation: at a point with `kv = 0` one step from the cleared accumulator, at any other one step from what
    the point before left (the buffer is not written back between). -/
def outsAt1 (c : Dev nD) : (n : ℕ) → n < cfg1.N → Vec F S128x64 .f32
  | 0, hn => acc1 (grid1.coords ⟨0, hn⟩) (iblk1 V c 0 ⟨0, hn⟩) (iblk1 V c 1 ⟨0, hn⟩) (k1_pay2 (F := F))
  | n + 1, hn =>
    if (n + 1) % 4 = 0 then
      acc1 (grid1.coords ⟨n + 1, hn⟩) (iblk1 V c 0 ⟨n + 1, hn⟩) (iblk1 V c 1 ⟨n + 1, hn⟩) (k1_pay2 (F := F))
    else
      acc1 (grid1.coords ⟨n + 1, hn⟩) (iblk1 V c 0 ⟨n + 1, hn⟩) (iblk1 V c 1 ⟨n + 1, hn⟩) (outsAt1 c n (Nat.lt_of_succ_lt hn))

theorem outsAt1_A (c : Dev nD) (t : Fin cfg1.N) (h0 : t.val % 4 = 0) :
    outsAt1 V c t.val t.isLt = acc1 (grid1.coords t) (iblk1 V c 0 t) (iblk1 V c 1 t) (k1_pay2 (F := F)) := by
  obtain ⟨n, hn⟩ := t
  cases n with
  | zero => exact rfl
  | succ n => exact (if_pos h0).trans rfl

theorem outsAt1_B (c : Dev nD) (t : Fin cfg1.N) (h0 : ¬t.val % 4 = 0) :
    outsAt1 V c t.val t.isLt = acc1 (grid1.coords t) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; the two input windows' buffers at
    their blocks, the result window's at the accumulation; the array the two input windows share is held half by
    each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem q1_0 (c : Dev nD) : (dat1 V c).q 0 = fullShare.left := by dsimp only [dat1]
theorem q1_1 (c : Dev nD) : (dat1 V c).q 1 = fullShare.right := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with `kv ≠ 0` the result window's buffer holds what the body left at the point before: the point is
    not the first and the buffer was not written back between. -/
theorem before1_2_B (c : Dev nD) (t : Fin cfg1.N) (h0 : ¬t.val % 4 = 0) (d) :
    (dat1 V c).before 2 t d = outsAt1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the second coordinate says which case the point is
    in, and where it is not zero the result window's buffer holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    iintro ⟨HΦ, Ho, ⟨%d0, H0⟩, ⟨%d1, H1⟩, ⟨%d2, H2⟩⟩
    iapply (sound_kernel1_A c Set.univ (grid1.coords t) ((hcond1 t).mpr h0) _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V c t h0]
    iintro ⟨HΦ, Ho, ⟨%d0, H0⟩, ⟨%d1, H1⟩, ⟨%d2, H2⟩⟩
    iapply (sound_kernel1_B c Set.univ (grid1.coords t) (fun h => h0 ((hcond1 t).mp h)) _ _ _ _ _ _ (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Shared.lean ====
/-
  Region 1 hands one array to two of its windows. Of the core's buffers when the region is entered, the array the
  two input windows read is split in two halves, one for each window, and put back whole when the region is left.
-/
import proofs.«156996_j33414845562989_1_alg».proof.Proof.Gen.Kernel.Launch
import Idealize.ShloMosaic.Lib.Pipeline.FrameBody
import Idealize.ShloMosaic.Lib.Pipeline.RegionsLoop
import Idealize.ShloMosaic.Lib.Pipeline.FrameSuffix
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffers behind pipeline 1's windows' arrays: the shared input array and the result's. -/
theorem himg1 : Finset.univ.image (Pipeline.arrRef spec1) = {main_v3, main_v4} := by decide

/-- One window's array of pipeline 1, a whole buffer, as a points-to on the whole buffer behind it. -/
theorem arr1_pt (c : Dev nD) (w : Fin 3) (q : PosShare TreeShare) (X : Buf (Elt F) ((cfg1.win w).arr.view.loc (c : Thread nD τ))) :
    ((cfg1.win w).arr.view.loc (c : Thread nD τ) ↦[(cfg1.win w).arr.view.set]{q} X : sProp 𝕄)
      = ((c : Thread nD τ).loc (Pipeline.arrRef spec1 w) ↦{q} X) := by
  rw [(arr_whole1 w).set_eq_univ]

/-- ENTRY. A core's unscoped buffers at contents `V` are pipeline 1's arrays at the proof data's entry contents —
    the array its two input windows read held half by each (`hq`), the result's array whole — and the unscoped rest. -/
theorem arrays1_of_unscopedBufs (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ (fun _ : Unit => cfg1) () winFacts₀1.arr_unscoped c V]
  refine sep_mono ?_ .rfl
  unfold Pipeline.arrBufs Dat.arrays
  rw [show Finset.univ.image (Pipeline.arrRef (cfg1).spec) = {main_v3, main_v4} from himg1, bigSep_insert (by decide), bigSep_singleton, bigSep_W1]
  have s0 : dat.share 0 = fullShare.left := hq0
  have s1 : dat.share 1 = fullShare.right := hq1
  have s2 : dat.share 2 = fullShare := rfl
  have e0 : dat.arrAt 0 0 = V main_v3 := hA 0
  have e1 : dat.arrAt 1 0 = V main_v3 := hA 1
  have e2 : dat.arrAt 2 0 = V main_v4 := hA 2
  rw [arr1_pt c 0, arr1_pt c 1, arr1_pt c 2, s0, s1, s2]
  show _ ⊢ iprop(((c : Thread nD τ).loc main_v3 ↦{fullShare.left} dat.arrAt 0 0 : sProp 𝕄) ∗ ((c : Thread nD τ).loc main_v3 ↦{fullShare.right} dat.arrAt 1 0) ∗ ((c : Thread nD τ).loc main_v4 ↦{fullShare} dat.arrAt 2 0))
  rw [e0, e1, e2]
  -- the shared array's full share is its two halves; regroup to the windows' order
  exact (sep_mono (pointsTo_share (PosShare.mem_left_op_right fullShare)).1 .rfl).trans sep_assoc.1

/-- EXIT. Pipeline 1's arrays at contents `G` — the two input windows' the same — and the unscoped rest at `V` are the
    core's unscoped buffers at any `V'` that has the arrays at `G` and agrees with `V` off them. -/
theorem unscopedBufs_of_arrays1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  rw [Pipeline.unscopedBufs_split₀ (fun _ : Unit => cfg1) () winFacts₀1.arr_unscoped c V']
  refine sep_mono ?_ (Entails.of_eq ?_)
  · unfold Pipeline.arrBufs Dat.arrays
    rw [show Finset.univ.image (Pipeline.arrRef (cfg1).spec) = {main_v3, main_v4} from himg1, bigSep_insert (by decide), bigSep_singleton, bigSep_W1]
    have s0 : dat.share 0 = fullShare.left := hq0
    have s1 : dat.share 1 = fullShare.right := hq1
    have s2 : dat.share 2 = fullShare := rfl
    have e0 : G 0 = V' main_v3 := hG 0
    have e1 : G 1 = V' main_v3 := hG 1
    have e2 : G 2 = V' main_v4 := hG 2
    rw [arr1_pt c 0, arr1_pt c 1, arr1_pt c 2, s0, s1, s2, e0, e1, e2]
    -- regroup, then the two halves of the shared array make its full share again
    exact sep_assoc.2.trans (sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.KB.Run.lean ====
/-
  The whole run of @main: a reshape, region 0, a reshape and a transposition, region 1, a concatenation. The contents of
  the core's buffers are followed from the launch through every stretch — a host stretch applies its operations, a
  region leaves its result array at what its write-backs made of it — and every weakly fair execution ends with every
  buffer at the last of these contents.
-/
import proofs.«156996_j33414845562989_1_alg».proof.Proof.KB.Region0
import proofs.«156996_j33414845562989_1_alg».proof.Proof.KB.Region1
import proofs.«156996_j33414845562989_1_alg».proof.Proof.KB.Shared
import proofs.«156996_j33414845562989_1_alg».proof.Proof.Gen.Kernel.Regions
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the reshape and the transposition (region 1's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- At region 1's exit: its result array at what the pipeline leaves, every other buffer as entered. -/
def W4 (c : Dev nD) : Valuation τ sig (Elt F) :=
  Function.update (W3 m c) (Proc.devRef .tc main_v4) ((dat1 (VV3 m) c).arrAt 2 cfg1.N)
theorem W4_v4 (c : Dev nD) : W4 m c (Proc.devRef .tc main_v4) = (dat1 (VV3 m) c).arrAt 2 cfg1.N := by
  unfold W4; exact Function.update_self ..
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) ..
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) := by
  match w with
  | ⟨0, _⟩ => exact ((dat1 (VV3 m) c).arrAt_in 0 rfl _).trans ((A_eq1 (VV3 m) c 0).trans (W4_of_ne m c main_v3 (by decide)).symm)
  | ⟨1, _⟩ => exact ((dat1 (VV3 m) c).arrAt_in 1 rfl _).trans ((A_eq1 (VV3 m) c 1).trans (W4_of_ne m c main_v3 (by decide)).symm)
  | ⟨2, _⟩ => exact (W4_v4 m c).symm
theorem hrest1 (c : Dev nD) : ∀ b, b ∉ Finset.univ.image (Pipeline.arrRef spec1) → VV4 m c b = VV3 m c b :=
  fun b hb => W4_of_ne m c b fun e => hb (Finset.mem_image.mpr ⟨2, Finset.mem_univ _, e.symm⟩)
/-- After the concatenation: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; the array its two input
    windows share is split between them at the entry and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := arrays1_of_unscopedBufs (F := F) c (pdats m 1 c) (q1_0 (VV3 m) c) (q1_1 (VV3 m) c) (VV3 m c) (A_eq1 (VV3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (q1_0 (VV3 m) c) (q1_1 (VV3 m) c)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ Rr c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KB.Frame.lean ====
/-
  The frame: no stretch of @main writes an argument array — no host operation names one as its result, region 0 only
  reads `x` through an input window, and neither region touches `T` — so the contents followed through the run walk
  back, at the two arguments, to the launch memory.
-/
import proofs.«156996_j33414845562989_1_alg».proof.Proof.KB.Run
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (VV1 m) c).arrAt_in 0 rfl _).trans (A_eq0 (VV1 m) c 0))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg0 (c : Dev nD) : W5 m c (Proc.devRef .tc main_arg0) = m ((c : Thread nD τ).loc main_arg0) :=
  (StableHlo.after_of_writes_sub hostOps2 _ hostOps2_writes (by decide)).trans (W4_main_arg0 m c)
theorem W5_main_arg1 (c : Dev nD) : W5 m c (Proc.devRef .tc main_arg1) = m ((c : Thread nD τ).loc main_arg1) :=
  (StableHlo.after_of_writes_sub hostOps2 _ hostOps2_writes (by decide)).trans (W4_main_arg1 m c)

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.Kernel.Hand

end
-- ==== Proof.KI.Region0.lean ====
/-
  Region 0 of the program: the projection `x · W` computed block by block. The grid has two points; point `t` reads
  rows `256 t … 256 t + 255` of `x` (window 0) and the whole weight matrix `W` (window 1, fetched once), and stores
  the product of the two blocks into rows `256 t … 256 t + 255` of the result (window 2). Stated at a parameter `V`,
  the contents of the core's buffers when the region is entered: what each staging buffer holds after the body at a
  point, the body's triple, and the pipeline's proof data with its body obligation.
-/
import proofs.«156996_j33414845562989_1_alg».proof.Proof.Gen.KernelIdeal.Launch
import proofs.«156996_j33414845562989_1_alg».proof.Proof.Gen.KernelIdeal.Skeleton
import proofs.«156996_j33414845562989_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether or not the point fetched it: an
    unfetched window's block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of the row window and of the result window, and the whole weight matrix. -/
abbrev rX : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0

/-- What the body leaves in the result window's staging buffer: its one store, the product of the two loaded blocks. -/
def out0_2 (x0 : Vec F S256x1024 .f32) (x1 : Vec F S1024x1024 .f32) : Vec F S256x1024 .f32 :=
  View.canon [⟨rX, k0_pay1 (View.ld x0 rX) (View.ld x1 rW)⟩]

/-- The one store covers the buffer. -/
theorem cover0_2 (p0 : Vec F S256x1024 .f32) (y : S256x1024.Idx) :
    ∃ pc ∈ ([⟨rX, p0⟩] : List (View.Piece (Elt F) S256x1024 .f32)), y ∈ pc.1.set :=
  View.cover_of_tiled [⟨rX, p0⟩] S256x1024.size (by rfl) y

set_option maxHeartbeats 1000000 in
/-- The body on whole staging memrefs — the two inputs at contents `x0`, `x1`, the output at anything — runs to the
    inputs as they were and the output at `out0_2 x0 x1`. -/
theorem sound_kernel0 (c : Dev nD) (E : Set ℕ) (i : grid0.Coords) (arg1 : Memref sig .tc .vmem S256x1024 .f32) (harg1 : arg1.IsWhole)
    (arg2 : Memref sig .tc .vmem S1024x1024 .f32) (harg2 : arg2.IsWhole) (arg3 : Memref sig .tc .vmem S256x1024 .f32) (harg3 : arg3.IsWhole)
    (x0 : Vec F S256x1024 .f32) (x1 : Vec F S1024x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two blocks; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
/-
  Region 1 of the program: for every pair of rows `(a, b)` and every feature `o`, the weight `exp (-‖M a · o − M b · o‖₁)`
  off the diagonal, summed over `b`. The grid is 4 × 4: point `(i, kv)` reads rows `128 i …` of `M` through window 0,
  rows `128 kv …` of the same array through window 1, and adds the block's row sums into the result window's block
  `i`, which it first clears when `kv = 0`; the block is written back after `kv = 3`. Stated at a parameter `V`, the
  contents of the core's buffers when the region is entered.
-/
import proofs.«156996_j33414845562989_1_alg».proof.Proof.Gen.KernelIdeal.Launch
import proofs.«156996_j33414845562989_1_alg».proof.Proof.Gen.KernelIdeal.Skeleton
import proofs.«156996_j33414845562989_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body clears the accumulator exactly when the second grid coordinate is zero. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 4 = 0 :=
  (by decide +kernel : ∀ t : Fin grid1.N, cond1 (grid1.coords t) ↔ t.val % 4 = 0)

/-- The whole blocks of the windows. -/
abbrev rM : Rect S128x16x64 := Rect.unit (s := S128x16x64) ![0, 0, 0] S128x16x64.size inb_S128x16x64_S128x16x64_0_0_0
abbrev rO : Rect S128x64 := Rect.unit (s := S128x64) ![0, 0] S128x64.size inb_S128x64_S128x64_0_0

/-- One step of the accumulation: from the two row blocks `x0`, `x1` at grid coordinates `i` and the accumulator `a`,
    the accumulator plus the block's masked row sums. -/
def acc1 (i : grid1.Coords) (x0 x1 : Vec F S128x16x64 .f32) (a : Vec F S128x64 .f32) : Vec F S128x64 .f32 :=
  k1_pay1 (k1_pay3 (F := F) i) (k1_pay4 x0) (k1_pay5 x1)
    (k1_pay11 (k1_pay4 x0) (k1_pay5 x1) (k1_pay9 (k1_pay4 x0) (k1_pay5 x1) (k1_pay6 x0 x1) (k1_pay7 x1) (k1_pay8 x0)) (k1_pay10 (k1_pay4 x0) (k1_pay5 x1)))
    (k1_pay12 (k1_pay4 x0)) (k1_pay13 (k1_pay5 x1)) a

theorem hz2 : (![0, 0] : Fin 2 → Nat) = fun _ => 0 := by funext a; fin_cases a <;> rfl
theorem hz3 : (![0, 0, 0] : Fin 3 → Nat) = fun _ => 0 := by funext a; fin_cases a <;> rfl

/-- After a whole-block store that follows an earlier one, the buffer reads as the later payload. -/
theorem read_writes_two_whole {sig' : RefSig} {κ' : Kind} {sp' : Space} (v : View sig' κ' sp' S128x64 .f32) (f : v.ty.Contents (Elt F))
    (w w0 : S128x64.Idx → Elt F .f32) :
    v.read (Elt F) (v.writes (Elt F) f [⟨rO, w⟩, ⟨rO, w0⟩]) = w := by
  rw [View.read_writes_eq_canon _ _ _ (fun y => ⟨⟨rO, w⟩, List.mem_cons_self .., View.mem_set_unit_zero hz2 inb_S128x64_S128x64_0_0 y⟩)]
  exact View.canon_cons_unit_zero hz2 inb_S128x64_S128x64_0_0 w _

/-- After one whole-block store the buffer reads as its payload. -/
theorem read_writes_one_whole {sig' : RefSig} {κ' : Kind} {sp' : Space} (v : View sig' κ' sp' S128x64 .f32) (f : v.ty.Contents (Elt F))
    (w : S128x64.Idx → Elt F .f32) :
    v.read (Elt F) (v.writes (Elt F) f [⟨rO, w⟩]) = w := by
  rw [View.read_writes_eq_canon _ _ _ (fun y => ⟨⟨rO, w⟩, List.mem_cons_self .., View.mem_set_unit_zero hz2 inb_S128x64_S128x64_0_0 y⟩)]
  exact View.canon_unit_zero hz2 inb_S128x64_S128x64_0_0 w

set_option maxHeartbeats 1000000 in
/-- The body where it first clears the accumulator (`kv = 0`). -/
theorem sound_kernel1_A (c : Dev nD) (E : Set ℕ) (i : grid1.Coords) (hc : cond1 i)
    (arg2 : Memref sig .tc .vmem S128x16x64 .f32) (harg2 : arg2.IsWhole)
    (arg3 : Memref sig .tc .vmem S128x16x64 .f32) (harg3 : arg3.IsWhole) (arg4 : Memref sig .tc .vmem S128x64 .f32) (harg4 : arg4.IsWhole)
    (x0 x1 : Vec F S128x16x64 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (acc1 i x0 x1 (k1_pay2 (F := F)))) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%d2, %f2, -, H2⟩, Hk⟩
  subst hf0; subst hf1
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (read_writes_two_whole _ _ _ _).trans ?_
  unfold acc1
  rw [View.readCov_unit_zero (S := S128x64) _ hz2]
  simp only [View.readAt_eq_ld, View.ld_unit_zero (S := S128x16x64) hz3]

set_option maxHeartbeats 1000000 in
/-- The body where it adds to the accumulator the point before left (`kv ≠ 0`). -/
theorem sound_kernel1_B (c : Dev nD) (E : Set ℕ) (i : grid1.Coords) (hc : ¬cond1 i)
    (arg2 : Memref sig .tc .vmem S128x16x64 .f32) (harg2 : arg2.IsWhole)
    (arg3 : Memref sig .tc .vmem S128x16x64 .f32) (harg3 : arg3.IsWhole) (arg4 : Memref sig .tc .vmem S128x64 .f32) (harg4 : arg4.IsWhole)
    (x0 x1 : Vec F S128x16x64 .f32) (xo : Vec F S128x64 .f32) (K : PUnit → sProp 𝕄) :
    iprop(owns (c : Thread nD τ) arg2 fullShare x0 ∗ owns (c : Thread nD τ) arg3 fullShare x1 ∗ owns (c : Thread nD τ) arg4 fullShare xo
        ∗ (iprop(owns (c : Thread nD τ) arg2 fullShare x0 ∗ owns (c : Thread nD τ) arg3 fullShare x1 ∗ owns (c : Thread nD τ) arg4 fullShare (acc1 i x0 x1 xo)) -∗ K ⟨⟩))
      ⊢ wp frame (wpE (defs₀ (F := F)) Variants.none c none) E (cc1__pairwise_kernel i arg2 harg2 arg3 harg3 arg4 harg4) K := by
  simp only [cc1__pairwise_kernel_eq_skeleton]; unfold cc1__pairwise_kernel_skel
  unfold owns
  iintro ⟨⟨%f0, %hf0, H0⟩, ⟨%f1, %hf1, H1⟩, ⟨%f2, %hf2, H2⟩, Hk⟩
  subst hf0; subst hf1; subst hf2
  sl_exec (disch := first | exact hc)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (read_writes_one_whole _ _ _).trans ?_
  unfold acc1
  simp only [View.readAt_eq_ld, View.ld_unit_zero (S := S128x16x64) hz3, View.ld_unit_zero (S := S128x64) hz2]

/-! ## What the result window's buffer holds after each point -/

/-- The accumulation: at a point with `kv = 0` one step from the cleared accumulator, at any other one step from what
    the point before left (the buffer is not written back between). -/
def outsAt1 (c : Dev nD) : (n : ℕ) → n < cfg1.N → Vec F S128x64 .f32
  | 0, hn => acc1 (grid1.coords ⟨0, hn⟩) (iblk1 V c 0 ⟨0, hn⟩) (iblk1 V c 1 ⟨0, hn⟩) (k1_pay2 (F := F))
  | n + 1, hn =>
    if (n + 1) % 4 = 0 then
      acc1 (grid1.coords ⟨n + 1, hn⟩) (iblk1 V c 0 ⟨n + 1, hn⟩) (iblk1 V c 1 ⟨n + 1, hn⟩) (k1_pay2 (F := F))
    else
      acc1 (grid1.coords ⟨n + 1, hn⟩) (iblk1 V c 0 ⟨n + 1, hn⟩) (iblk1 V c 1 ⟨n + 1, hn⟩) (outsAt1 c n (Nat.lt_of_succ_lt hn))

theorem outsAt1_A (c : Dev nD) (t : Fin cfg1.N) (h0 : t.val % 4 = 0) :
    outsAt1 V c t.val t.isLt = acc1 (grid1.coords t) (iblk1 V c 0 t) (iblk1 V c 1 t) (k1_pay2 (F := F)) := by
  obtain ⟨n, hn⟩ := t
  cases n with
  | zero => exact rfl
  | succ n => exact (if_pos h0).trans rfl

theorem outsAt1_B (c : Dev nD) (t : Fin cfg1.N) (h0 : ¬t.val % 4 = 0) :
    outsAt1 V c t.val t.isLt = acc1 (grid1.coords t) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The pipeline's proof data -/

/-- The proof data of pipeline 1 on core `c`: the arrays as the region finds them; the two input windows' buffers at
    their blocks, the result window's at the accumulation; the array the two input windows share is held half by
    each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => outsAt1 V c t.val t.isLt
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = outsAt1 V c t.val t.isLt := by dsimp only [dat1]

theorem q1_0 (c : Dev nD) : (dat1 V c).q 0 = fullShare.left := by dsimp only [dat1]
theorem q1_1 (c : Dev nD) : (dat1 V c).q 1 = fullShare.right := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with `kv ≠ 0` the result window's buffer holds what the body left at the point before: the point is
    not the first and the buffer was not written back between. -/
theorem before1_2_B (c : Dev nD) (t : Fin cfg1.N) (h0 : ¬t.val % 4 = 0) (d) :
    (dat1 V c).before 2 t d = outsAt1 V c (t.val - 1) (Nat.lt_of_le_of_lt (Nat.sub_le _ _) t.isLt) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 800000 in
/-- The body at any point: the inputs' buffers hold their blocks; the second coordinate says which case the point is
    in, and where it is not zero the result window's buffer holds what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    iintro ⟨HΦ, Ho, ⟨%d0, H0⟩, ⟨%d1, H1⟩, ⟨%d2, H2⟩⟩
    iapply (sound_kernel1_A c Set.univ (grid1.coords t) ((hcond1 t).mpr h0) _ _ _ _ _ _ (iblk1 V c 0 t) (iblk1 V c 1 t) _)
    isplitl [H0]; · iexact H0
    isplitl [H1]; · iexact H1
    isplitl [H2]; · iexists _; iexact H2
    iintro ⟨H0, H1, H2⟩
    isplitl [HΦ]; · iexact HΦ
    isplitl [Ho]; · iexact Ho
    isplitl [H0]; · iexact H0
    isplitl [H1]; · iexact H1
    iexact H2
  · rw [outsAt1_B V c t h0]
    simp only [before1_2_B V c t h0]
    iintro ⟨HΦ, Ho, ⟨%d0, H0⟩, ⟨%d1, H1⟩, ⟨%d2, H2⟩⟩
    iapply (sound_kernel1_B c Set.univ (grid1.coords t) (fun h => h0 ((hcond1 t).mp h)) _ _ _ _ _ _ (iblk1 V c 0 t) (iblk1 V c 1 t) _ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Shared.lean ====
/-
  Region 1 hands one array to two of its windows. Of the core's buffers when the region is entered, the array the
  two input windows read is split in two halves, one for each window, and put back whole when the region is left.
-/
import proofs.«156996_j33414845562989_1_alg».proof.Proof.Gen.KernelIdeal.Launch
import Idealize.ShloMosaic.Lib.Pipeline.FrameBody
import Idealize.ShloMosaic.Lib.Pipeline.RegionsLoop
import Idealize.ShloMosaic.Lib.Pipeline.FrameSuffix
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffers behind pipeline 1's windows' arrays: the shared input array and the result's. -/
theorem himg1 : Finset.univ.image (Pipeline.arrRef spec1) = {main_v3, main_v4} := by decide

/-- One window's array of pipeline 1, a whole buffer, as a points-to on the whole buffer behind it. -/
theorem arr1_pt (c : Dev nD) (w : Fin 3) (q : PosShare TreeShare) (X : Buf (Elt F) ((cfg1.win w).arr.view.loc (c : Thread nD τ))) :
    ((cfg1.win w).arr.view.loc (c : Thread nD τ) ↦[(cfg1.win w).arr.view.set]{q} X : sProp 𝕄)
      = ((c : Thread nD τ).loc (Pipeline.arrRef spec1 w) ↦{q} X) := by
  rw [(arr_whole1 w).set_eq_univ]

/-- ENTRY. A core's unscoped buffers at contents `V` are pipeline 1's arrays at the proof data's entry contents —
    the array its two input windows read held half by each (`hq`), the result's array whole — and the unscoped rest. -/
theorem arrays1_of_unscopedBufs (c : Dev nD) (dat : Dat τ (Elt F) Unit ℕ (UR sig nD τ) ℕ cfg1 c)
    (hq0 : dat.q 0 = fullShare.left) (hq1 : dat.q 1 = fullShare.right)
    (V : (b : Ref sig .tc) → Buf (Elt F) ((c : Thread nD τ).loc b))
    (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ (fun _ : Unit => cfg1) () winFacts₀1.arr_unscoped c V]
  refine sep_mono ?_ .rfl
  unfold Pipeline.arrBufs Dat.arrays
  rw [show Finset.univ.image (Pipeline.arrRef (cfg1).spec) = {main_v3, main_v4} from himg1, bigSep_insert (by decide), bigSep_singleton, bigSep_W1]
  have s0 : dat.share 0 = fullShare.left := hq0
  have s1 : dat.share 1 = fullShare.right := hq1
  have s2 : dat.share 2 = fullShare := rfl
  have e0 : dat.arrAt 0 0 = V main_v3 := hA 0
  have e1 : dat.arrAt 1 0 = V main_v3 := hA 1
  have e2 : dat.arrAt 2 0 = V main_v4 := hA 2
  rw [arr1_pt c 0, arr1_pt c 1, arr1_pt c 2, s0, s1, s2]
  show _ ⊢ iprop(((c : Thread nD τ).loc main_v3 ↦{fullShare.left} dat.arrAt 0 0 : sProp 𝕄) ∗ ((c : Thread nD τ).loc main_v3 ↦{fullShare.right} dat.arrAt 1 0) ∗ ((c : Thread nD τ).loc main_v4 ↦{fullShare} dat.arrAt 2 0))
  rw [e0, e1, e2]
  -- the shared array's full share is its two halves; regroup to the windows' order
  exact (sep_mono (pointsTo_share (PosShare.mem_left_op_right fullShare)).1 .rfl).trans sep_assoc.1

/-- EXIT. Pipeline 1's arrays at contents `G` — the two input windows' the same — and the unscoped rest at `V` are the
    core's unscoped buffers at any `V'` that has the arrays at `G` and agrees with `V` off them. -/
theorem unscopedBufs_of_arrays1 (c : Dev nD) (dat : Dat τ (Elt F) Unit ℕ (UR sig nD τ) ℕ cfg1 c)
    (hq0 : dat.q 0 = fullShare.left) (hq1 : dat.q 1 = fullShare.right)
    (V V' : (b : Ref sig .tc) → Buf (Elt F) ((c : Thread nD τ).loc b))
    (G : (w : Fin cfg1.W) → Buf (Elt F) ((cfg1.win w).arr.view.loc (c : Thread nD τ)))
    (hG : ∀ w, G w = V' (Pipeline.arrRef spec1 w))
    (hrest : ∀ b, b ∉ Finset.univ.image (Pipeline.arrRef spec1) → V' b = V b) :
    iprop(dat.arrays G ∗ Pipeline.unscopedRest spec1 c V) ⊢ (unscopedBufs c V' : sProp 𝕄) := by
  rw [Pipeline.unscopedBufs_split₀ (fun _ : Unit => cfg1) () winFacts₀1.arr_unscoped c V']
  refine sep_mono ?_ (Entails.of_eq ?_)
  · unfold Pipeline.arrBufs Dat.arrays
    rw [show Finset.univ.image (Pipeline.arrRef (cfg1).spec) = {main_v3, main_v4} from himg1, bigSep_insert (by decide), bigSep_singleton, bigSep_W1]
    have s0 : dat.share 0 = fullShare.left := hq0
    have s1 : dat.share 1 = fullShare.right := hq1
    have s2 : dat.share 2 = fullShare := rfl
    have e0 : G 0 = V' main_v3 := hG 0
    have e1 : G 1 = V' main_v3 := hG 1
    have e2 : G 2 = V' main_v4 := hG 2
    rw [arr1_pt c 0, arr1_pt c 1, arr1_pt c 2, s0, s1, s2, e0, e1, e2]
    -- regroup, then the two halves of the shared array make its full share again
    exact sep_assoc.2.trans (sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.KI.Run.lean ====
/-
  The whole run of @main: a reshape, region 0, a reshape and a transposition, region 1, a concatenation. The contents of
  the core's buffers are followed from the launch through every stretch — a host stretch applies its operations, a
  region leaves its result array at what its write-backs made of it — and every weakly fair execution ends with every
  buffer at the last of these contents.
-/
import proofs.«156996_j33414845562989_1_alg».proof.Proof.KI.Region0
import proofs.«156996_j33414845562989_1_alg».proof.Proof.KI.Region1
import proofs.«156996_j33414845562989_1_alg».proof.Proof.KI.Shared
import proofs.«156996_j33414845562989_1_alg».proof.Proof.Gen.KernelIdeal.Regions
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev VV1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (VV1 m) c).arrAt w cfg0.N
theorem W2_arr (c : Dev nD) (w : Fin cfg0.W) :
    W2 m c (Proc.devRef .tc (Pipeline.arrRef spec0 w)) = (dat0 (VV1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev VV2 : (c : Dev nD) → (b : Ref sig .tc) → Buf (Elt F) ((c : Thread nD τ).loc b) := fun c b => W2 m c b
theorem hF0 (c : Dev nD) (w : Fin cfg0.W) : (dat0 (VV1 m) c).arrAt w cfg0.N = VV2 m c (Pipeline.arrRef spec0 w) :=
  (W2_arr m c w).symm
theorem hrest0 (c : Dev nD) : ∀ b, b ∉ Finset.univ.image (Pipeline.arrRef spec0) → VV2 m c b = VV1 m c b :=
  fun b hb => W2_of_ne m c b fun w e => hb (Finset.mem_image.mpr ⟨w, Finset.mem_univ _, e⟩)

/-- After the reshape and the transposition (region 1's entry). -/
abbrev W3 : Dev nD → Valuation τ sig (Elt F) := fun c => StableHlo.after hostOps1 (W2 m c)
abbrev VV3 : (c : Dev nD) → (b : Ref sig .tc) → Buf (Elt F) ((c : Thread nD τ).loc b) := fun c b => W3 m c b
/-- At region 1's exit: its result array at what the pipeline leaves, every other buffer as entered. -/
def W4 (c : Dev nD) : Valuation τ sig (Elt F) :=
  Function.update (W3 m c) (Proc.devRef .tc main_v4) ((dat1 (VV3 m) c).arrAt 2 cfg1.N)
theorem W4_v4 (c : Dev nD) : W4 m c (Proc.devRef .tc main_v4) = (dat1 (VV3 m) c).arrAt 2 cfg1.N := by
  unfold W4; exact Function.update_self ..
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) ..
abbrev VV4 : (c : Dev nD) → (b : Ref sig .tc) → Buf (Elt F) ((c : Thread nD τ).loc b) := fun c b => W4 m c b
theorem hF1 (c : Dev nD) (w : Fin cfg1.W) : (dat1 (VV3 m) c).arrAt w cfg1.N = VV4 m c (Pipeline.arrRef spec1 w) := by
  match w with
  | ⟨0, _⟩ => exact ((dat1 (VV3 m) c).arrAt_in 0 rfl _).trans ((A_eq1 (VV3 m) c 0).trans (W4_of_ne m c main_v3 (by decide)).symm)
  | ⟨1, _⟩ => exact ((dat1 (VV3 m) c).arrAt_in 1 rfl _).trans ((A_eq1 (VV3 m) c 1).trans (W4_of_ne m c main_v3 (by decide)).symm)
  | ⟨2, _⟩ => exact (W4_v4 m c).symm
theorem hrest1 (c : Dev nD) : ∀ b, b ∉ Finset.univ.image (Pipeline.arrRef spec1) → VV4 m c b = VV3 m c b :=
  fun b hb => W4_of_ne m c b fun e => hb (Finset.mem_image.mpr ⟨2, Finset.mem_univ _, e.symm⟩)
/-- After the concatenation: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV1 m) c
  | ⟨1, _⟩ => fun c => dat1 (VV3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rr
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

set_option backward.isDefEq.respectTransparency.types false in
/-- Region 0 over the thread state: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV1 m) c).loose
  hwaits := Pipeline.hwaits_of_owed_zero _ _ _ _ L lv 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (VV1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV1 m c) (VV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`; the array its two input
    windows share is split between them at the entry and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV3 m) c).loose
  hwaits := Pipeline.hwaits_of_owed_zero _ _ _ _ L lv 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (VV3 m c)
  hentry c := by
    rw [Pipeline.ownSems0_none]
    have hsplit := arrays1_of_unscopedBufs (F := F) c (pdats m 1 c) (q1_0 (VV3 m) c) (q1_1 (VV3 m) c) (VV3 m c) (A_eq1 (VV3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (F := F) c (pdats m 1 c) (q1_0 (VV3 m) c) (q1_1 (VV3 m) c)
      (VV3 m c) (VV4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]
theorem main_run (c : Dev nD) : main (F := F) c = Pipeline.Seg.run (segs m) := (main_chain c).trans (by chain_rfl)

set_option backward.isDefEq.respectTransparency.types false in
/-- From any memory with zero counters, every weakly fair execution of @main terminates, nothing faulting, and every
    final state has every unscoped buffer at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rr c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ Rr c) ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KI.Frame.lean ====
/-
  The frame: no stretch of @main writes an argument array — no host operation names one as its result, region 0 only
  reads `x` through an input window, and neither region touches `T` — so the contents followed through the run walk
  back, at the two arguments, to the launch memory.
-/
import proofs.«156996_j33414845562989_1_alg».proof.Proof.KI.Run
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (VV1 m) c).arrAt_in 0 rfl _).trans (A_eq0 (VV1 m) c 0))
    _ = W0 m c (Proc.devRef .tc main_arg0) := StableHlo.after_of_writes_sub hostOps0 _ hostOps0_writes (by decide)
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W5_main_arg0 (c : Dev nD) : W5 m c (Proc.devRef .tc main_arg0) = m ((c : Thread nD τ).loc main_arg0) :=
  (StableHlo.after_of_writes_sub hostOps2 _ hostOps2_writes (by decide)).trans (W4_main_arg0 m c)
theorem W5_main_arg1 (c : Dev nD) : W5 m c (Proc.devRef .tc main_arg1) = m ((c : Thread nD τ).loc main_arg1) :=
  (StableHlo.after_of_writes_sub hostOps2 _ hostOps2_writes (by decide)).trans (W4_main_arg1 m c)

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m c),
     (h c _ (mem_uc main_arg1 (by decide))).trans (W5_main_arg1 m c)⟩) (run_all m ρ)

end Cert.KernelIdeal.Hand

end
-- ==== Proof.Spec.lean ====
/-
  What the program computes, as plain functions of its two inputs over the extended reals.
  `x : [512, 1024]`, `T : [1024, 64, 16]`. The projection is `P n j = ∑ k, x n k · T k (j / 16) (j % 16)`; read as
  `m n o k = P n (16 o + k)` it gives every row `n` and feature `o` a vector of 16 numbers. The result's last 64 columns
  are, for row `a` and feature `o`, the sum over the other rows `b` of `exp (−‖m b o − m a o‖₁)`.
-/
import Idealize.ShloMosaic.PureOps.Ideal
import Idealize.ShloMosaic.Lib.ValueIdx

noncomputable section

open scoped BigOperators

namespace Cert.Spec

open Idealize.ShloMosaic Idealize.ShloMosaic.ValueIdx

/-- The matrix product `x · w` of a `[512, 1024]` and a `[1024, 1024]` array, at row `n` and column `j`. -/
def proj (X : (⟨2, ![512, 1024]⟩ : Shape).Idx → EReal) (W : (⟨2, ![1024, 1024]⟩ : Shape).Idx → EReal)
    (n : Fin 512) (j : Fin 1024) : EReal :=
  ∑ k : Fin 1024, X (ix2 n k) * W (ix2 k j)

/-- The absolute value on the extended reals, as the float operations read it: the larger of a number and its negative. -/
def eabs (d : EReal) : EReal := max d (-d)

/-- The pairwise weights summed: for row `a` and feature `o` of `m : [512, 64, 16]`, the sum over every row `b` of
    `exp (−∑ k, |m b o k − m a o k|)` times the mask that drops `b = a`. -/
def pair (m : (⟨3, ![512, 64, 16]⟩ : Shape).Idx → EReal) (a : Fin 512) (o : Fin 64) : EReal :=
  ∑ b : Fin 512, Ideal.exp (-(∑ k : Fin 16, eabs (m (ix3 b o k) - m (ix3 a o k)))) * (if b = a then (0 : EReal) else 1)

/-- The projection read as `[512, 64, 16]`: `m n o k = ∑ j, x n j · T j o k`, the weight `T : [1024, 64, 16]` read as the
    `[1024, 1024]` matrix whose column `16 o + k` is `T · o k`. -/
def mOf (X : (⟨2, ![512, 1024]⟩ : Shape).Idx → EReal) (T : (⟨3, ![1024, 64, 16]⟩ : Shape).Idx → EReal) :
    (⟨3, ![512, 64, 16]⟩ : Shape).Idx → EReal := fun i =>
  proj X (fun j => T (ix3 (j 0) (⟨(j 1).val / 16, by have h : (j 1).val < 1024 := (j 1).isLt; show (j 1).val / 16 < 64; omega⟩ : Fin 64)
      (⟨(j 1).val % 16, by show (j 1).val % 16 < 16; omega⟩ : Fin 16)))
    (i 0) (⟨16 * (i 1).val + (i 2).val, by have h1 : (i 1).val < 64 := (i 1).isLt; have h2 : (i 2).val < 16 := (i 2).isLt; show 16 * (i 1).val + (i 2).val < 1024; omega⟩ : Fin 1024)

/-- The last 64 columns of the result: the pairwise sums of the projection. -/
def ob (X : (⟨2, ![512, 1024]⟩ : Shape).Idx → EReal) (T : (⟨3, ![1024, 64, 16]⟩ : Shape).Idx → EReal) :
    (⟨2, ![512, 64]⟩ : Shape).Idx → EReal := fun i => pair (mOf X T) (i 0) (i 1)

/-- `|x − y| = |y − x|` on the extended reals, the infinities included. -/
theorem eabs_sub_comm (x y : EReal) : eabs (x - y) = eabs (y - x) := by
  unfold eabs
  -- By cases on both arguments: bottom, a real number, top.
  induction x using EReal.rec with
  | bot =>
    induction y using EReal.rec with
    | bot => rfl
    | coe b => rw [EReal.bot_sub, EReal.coe_sub_bot, max_comm]; rfl
    | top => rw [EReal.bot_sub, EReal.top_sub_bot, max_comm]; rfl
  | coe a =>
    induction y using EReal.rec with
    | bot => rw [EReal.bot_sub, EReal.coe_sub_bot, max_comm]; rfl
    | coe b =>
      -- On the reals, the negative of a difference is the difference the other way round.
      rw [← EReal.coe_sub, ← EReal.coe_sub, ← EReal.coe_neg, ← EReal.coe_neg, neg_sub, neg_sub, max_comm]
    | top => rw [EReal.sub_top, EReal.top_sub_coe, max_comm]; rfl
  | top =>
    induction y using EReal.rec with
    | bot => rw [EReal.bot_sub, EReal.top_sub_bot, max_comm]; rfl
    | coe b => rw [EReal.sub_top, EReal.top_sub_coe, max_comm]; rfl
    | top => rfl

end Cert.Spec

end
-- ==== Proof.KI.ValueProj.lean ====
/-
  The value region 0 leaves in its result array, at the ideal instance: the matrix product of the two input arrays as
  the region finds them, entry by entry.
-/
import proofs.«156996_j33414845562989_1_alg».proof.Proof.KI.Region0
import proofs.«156996_j33414845562989_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Proj

/-- The two zero offsets, however they are spelt. -/
theorem zero_off2 : (![0, 0] : Fin 2 → Nat) = fun _ => 0 := funext fun a => by fin_cases a <;> rfl

section AnyF
variable {F : FTy → Type} [FloatOps F]

set_option maxHeartbeats 400000 in
/-- The body's one store covers the buffer and its two loads read whole buffers: what it leaves is the payload of the
    two blocks. -/
theorem out0_2_eq_pay (x0 : Vec F S256x1024 .f32) (x1 : Vec F S1024x1024 .f32) : out0_2 x0 x1 = k0_pay1 x0 x1 := by
  unfold out0_2
  rw [View.canon_unit_zero zero_off2]
  simp only [View.ld_unit_zero (S := S256x1024) zero_off2, View.ld_unit_zero (S := S1024x1024) zero_off2]

end AnyF

/-! ## The product at an index -/

theorem lhs_mm_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_mm_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_mm_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_mm_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

set_option maxHeartbeats 400000 in
/-- The matrix product into the zero accumulator, at row `p` and column `j`. -/
theorem mm_apply (a : FVec Ideal S256x1024 .bf16) (b : FVec Ideal S1024x1024 .bf16) (p : Fin 256) (j : Fin 1024) :
    matmul (F := Ideal) dot_S256x1024_S1024x1024_S256x1024_1_0_0_1_n_n none a b (constant (F := Ideal) S256x1024 .f32 0x00000000#32) (ix2 p j)
      = ∑ k : Fin 1024, a (ix2 p k) * b (ix2 k j) := by
  show FloatOps.matmul dot_S256x1024_S1024x1024_S256x1024_1_0_0_1_n_n none a b (constant (F := Ideal) S256x1024 .f32 0x00000000#32) (ix2 p j) = _
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p j) ((ValueIdx.contrEquiv1 dot_S256x1024_S1024x1024_S256x1024_1_0_0_1_n_n 1024 rfl rfl).symm k) = ix2 p k := funext fun a => Fin.ext (by
    match a with
    | ⟨0, _⟩ => exact lhs_mm_0 _ _
    | ⟨1, _⟩ => exact (lhs_mm_1 _ _).trans hk)
  have er : dot_S256x1024_S1024x1024_S256x1024_1_0_0_1_n_n.rhsIdx (ix2 p j) ((ValueIdx.contrEquiv1 dot_S256x1024_S1024x1024_S256x1024_1_0_0_1_n_n 1024 rfl rfl).symm k) = ix2 k j := funext fun a => Fin.ext (by
    match a with
    | ⟨0, _⟩ => exact (rhs_mm_0 _ _).trans hk
    | ⟨1, _⟩ => exact rhs_mm_1 _ _)
  rw [el, er]

set_option maxHeartbeats 400000 in
/-- The payload at row `p` and column `j`: the narrowing to bf16 and the cast to the same shape are the identity on the
    extended reals, so it is the sum of products of the two blocks. -/
theorem pay_apply (x0 : Vec Ideal S256x1024 .f32) (x1 : Vec Ideal S1024x1024 .f32) (p : Fin 256) (j : Fin 1024) :
    (k0_pay1 (F := Ideal) x0 x1 : S256x1024.Idx → EReal) (ix2 p j) = ∑ k : Fin 1024, (x0 (ix2 p k) : EReal) * (x1 (ix2 k j) : EReal) := by
  unfold k0_pay1
  refine (mm_apply _ _ p j).trans ?_
  refine Finset.sum_congr rfl fun k _ => ?_
  rw [truncf_apply, truncf_apply, shapeCast_self]

/-! ## From blocks to the array -/

/-- The payload at any index of the block. -/
theorem pay_apply_idx (x0 : Vec Ideal S256x1024 .f32) (x1 : Vec Ideal S1024x1024 .f32) (y : S256x1024.Idx) :
    (k0_pay1 (F := Ideal) x0 x1 : S256x1024.Idx → EReal) y = ∑ k : Fin 1024, (x0 (ix2 (y 0) k) : EReal) * (x1 (ix2 k (y 1)) : EReal) := by
  obtain ⟨p, q, rfl⟩ : ∃ (p : Fin 256) (q : Fin 1024), y = ix2 p q := ⟨y 0, y 1, eq_ix2 y⟩
  exact pay_apply x0 x1 p q

/-- The windows' index maps over the grid's two points: the row window and the result window sit at block row `t`, block
    column 0; the weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem idx_onto0 : ∀ q : Fin 2, ∃ t : Fin cfg0.N, t.val = q.val :=
  (by decide +kernel : ∀ q : Fin 2, ∃ t : Fin grid0.N, t.val = q.val)

/-- The product of the two input arrays as the region finds them, as one array. -/
def projArr (c : Dev nD) : S512x1024.Idx → Elt Ideal .f32 := fun i =>
  Cert.Spec.proj (V c main_arg0) (V c main_v0) (i 0) (i 1)

set_option maxHeartbeats 400000 in
/-- The row window's block at point `t`, at an index of the block, reads the array 256 `t` rows further down. -/
theorem iblk0_0_apply (c : Dev nD) (t : Fin cfg0.N) (y : S256x1024.Idx) (i : S512x1024.Idx)
    (h0 : (i 0).val = 256 * t.val + (y 0).val) (h1 : (i 1).val = (y 1).val) :
    (iblk0 (F := Ideal) V c 0 t : S256x1024.Idx → EReal) y = (V c main_arg0 : S512x1024.Idx → EReal) i := by
  show (V c main_arg0 : S512x1024.Idx → EReal) (((cfg0.win 0).blk t).view.emb y) = (V c main_arg0 : S512x1024.Idx → EReal) i
  refine congrArg _ ?_
  obtain ⟨e0, e1, -⟩ := idx_facts0 t
  funext a; apply Fin.ext
  match a with
  | ⟨0, _⟩ => show win0_0.index t (0 : Fin 2) * 256 + 1 * (y 0).val = (i 0).val; omega
  | ⟨1, _⟩ => show win0_0.index t (1 : Fin 2) * 1024 + 1 * (y 1).val = (i 1).val; omega

set_option maxHeartbeats 400000 in
/-- The weight window's block at every point is the whole array. -/
theorem iblk0_1_apply (c : Dev nD) (t : Fin cfg0.N) (y : S1024x1024.Idx) :
    (iblk0 (F := Ideal) V c 1 t : S1024x1024.Idx → EReal) y = (V c main_v0 : S1024x1024.Idx → EReal) y := by
  show (V c main_v0 : S1024x1024.Idx → EReal) (((cfg0.win 1).blk t).view.emb y) = (V c main_v0 : S1024x1024.Idx → EReal) y
  refine congrArg _ ?_
  obtain ⟨-, -, e0, e1, -⟩ := idx_facts0 t
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

set_option maxHeartbeats 400000 in
/-- What point `t` writes back is block `t` of the product array. -/
theorem flushed0_2_eq (c : Dev nD) (t : Fin cfg0.N) :
    (dat0 (F := Ideal) V c).flushed 2 t = ((cfg0.win 2).blk t).view.read (Elt Ideal) (projArr V c) := by
  show (cfg0.win 2).cut (grid0.coords t) ((dat0 (F := Ideal) V c).after 2 t) = _
  rw [after0_2, out0_2_eq_pay]
  funext y
  show (k0_pay1 (F := Ideal) (iblk0 (F := Ideal) V c 0 t) (iblk0 (F := Ideal) V c 1 t) : S256x1024.Idx → EReal) y
    = projArr V c (((cfg0.win 2).blk t).view.emb y)
  rw [pay_apply_idx]
  unfold projArr Cert.Spec.proj
  obtain ⟨-, -, -, -, e0, e1⟩ := idx_facts0 t
  have r0 : ((((cfg0.win 2).blk t).view.emb y) 0).val = 256 * t.val + (y 0).val := by
    show win0_2.index t (0 : Fin 2) * 256 + 1 * (y 0).val = _; omega
  have r1 : ((((cfg0.win 2).blk t).view.emb y) 1).val = (y 1).val := by
    show win0_2.index t (1 : Fin 2) * 1024 + 1 * (y 1).val = _; omega
  refine Finset.sum_congr rfl fun k _ => ?_
  rw [iblk0_0_apply V c t (ix2 (y 0) k) (ix2 ((((cfg0.win 2).blk t).view.emb y) 0) k) r0 rfl, iblk0_1_apply V c t (ix2 k (y 1))]
  refine congrArg _ (congrArg _ ?_)
  funext a; apply Fin.ext
  match a with
  | ⟨0, _⟩ => rfl
  | ⟨1, _⟩ => exact r1.symm

/-- An index of the result array is in point `t`'s block iff each coordinate is in the block's range on its axis. -/
theorem mem_blk0_2 (t : Fin cfg0.N) (i : S512x1024.Idx) :
    i ∈ ((cfg0.win 2).blk t).view.set ↔ ∀ a : Fin 2, win0_2.index t a * S256x1024.size a ≤ (i a).val ∧ (i a).val < win0_2.index t a * S256x1024.size a + S256x1024.size a := by
  show i ∈ ((View.whole main_v1).slice (win0_2.rect t)).set ↔ _
  rw [View.set_slice_whole, Rect.mem_set_unit]
  exact Iff.rfl

/-- The two blocks of 256 rows cover the 512 rows of the result. -/
theorem cover0_2_arr (i : S512x1024.Idx) :
    ∃ t : Fin cfg0.N, (cfg0.win 2).flush t = true ∧ i ∈ ((cfg0.win 2).blk t).view.set := by
  have hi0 : (i 0).val < 512 := (i 0).isLt
  have hi1 : (i 1).val < 1024 := (i 1).isLt
  obtain ⟨t, ht⟩ := idx_onto0 ⟨(i 0).val / 256, by omega⟩
  have ht' : t.val = (i 0).val / 256 := ht
  obtain ⟨-, -, -, -, e0, e1⟩ := idx_facts0 t
  refine ⟨t, flush0_2 t, ?_⟩
  rw [mem_blk0_2]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 1024 ≤ (i 1).val ∧ (i 1).val < win0_2.index t (1 : Fin 2) * 1024 + 1024; omega

/-- The result array after the region is the product array. -/
theorem arrAt0_2_eq (c : Dev nD) : (dat0 (F := Ideal) V c).arrAt 2 cfg0.N = projArr V c :=
  (dat0 (F := Ideal) V c).arrAt_eq_of_cover 2 (projArr V c) (fun t _ => flushed0_2_eq V c t) cover0_2_arr

end Proj

/-- After the region, entry `(n, j)` of the result array is `∑ k, x n k · w k j` of the two input arrays. -/
theorem proj_value (c : Dev nD) (n : Fin 512) (j : Fin 1024) :
    ((dat0 (F := Ideal) V c).arrAt 2 cfg0.N : S512x1024.Idx → EReal) (ix2 n j)
      = Cert.Spec.proj (V c main_arg0) (V c main_v0) n j := by
  rw [Proj.arrAt0_2_eq]
  rfl

end Cert.KernelIdeal.Hand

end
-- ==== Proof.KI.PairBlocks.lean ====
/-
  Region 1's result array after the region, read off the accumulation: rows `128 i … 128 i + 127` are the block the
  grid's points `(i, 0) … (i, 3)` accumulate and the last of them writes back.
-/
import proofs.«156996_j33414845562989_1_alg».proof.Proof.KI.Region1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (V : (c : Dev nD) → (b : Ref sig .tc) → Buf (Elt F) ((c : Thread nD τ).loc b))

/-- The printed index maps and the grid's coordinates, decided once over the 16 points: at point `t` window 0's block
    index is `(t / 4, 0, 0)`, window 1's `(t % 4, 0, 0)`, the result window's `(t / 4, 0)`, and the point's
    coordinates are `(t / 4, t % 4)`. -/
theorem idx1_facts : ∀ t : Fin cfg1.N,
    win1_0.index t (0 : Fin 3) = t.val / 4 ∧ win1_0.index t (1 : Fin 3) = 0 ∧ win1_0.index t (2 : Fin 3) = 0
  ∧ win1_1.index t (0 : Fin 3) = t.val % 4 ∧ win1_1.index t (1 : Fin 3) = 0 ∧ win1_1.index t (2 : Fin 3) = 0
  ∧ win1_2.index t (0 : Fin 2) = t.val / 4 ∧ win1_2.index t (1 : Fin 2) = 0
  ∧ (grid1.coords t 0).val = t.val / 4 ∧ (grid1.coords t 1).val = t.val % 4 :=
  (by decide +kernel : ∀ t : Fin grid1.N, _)

/-- A point of the grid is below 16. -/
theorem lt16 (t : Fin cfg1.N) : t.val < 16 := lt_of_lt_of_eq t.isLt (show cfg1.N = 16 from N_1)

/-- Window 0's block at point `t`, at an entry: row `r` of the block is row `128 (t / 4) + r` of the array; the other
    two coordinates are the array's own. -/
theorem iblk1_0_at (c : Dev nD) (t : Fin cfg1.N) (q : Fin 512) (r : Fin 128) (k : Fin 16) (o : Fin 64)
    (hq : q.val = 128 * (t.val / 4) + r.val) :
    (iblk1 V c 0 t : S128x16x64.Idx → Elt F .f32) (ix3 r k o) = (V c main_v3 : S512x16x64.Idx → Elt F .f32) (ix3 q k o) := by
  unfold iblk1
  rw [View.read_apply]
  show (V c main_v3 : S512x16x64.Idx → Elt F .f32) (((cfg1.win 0).blk t).view.emb (ix3 r k o)) = _
  refine congrArg _ ?_
  obtain ⟨e0, e1, e2, -⟩ := idx1_facts t
  funext a; apply Fin.ext
  match a with
  | ⟨0, _⟩ => show win1_0.index t (0 : Fin 3) * 128 + 1 * r.val = q.val; omega
  | ⟨1, _⟩ => show win1_0.index t (1 : Fin 3) * 16 + 1 * k.val = k.val; omega
  | ⟨2, _⟩ => show win1_0.index t (2 : Fin 3) * 64 + 1 * o.val = o.val; omega

/-- Window 1's block at point `t`, at an entry: row `r` of the block is row `128 (t % 4) + r` of the array. -/
theorem iblk1_1_at (c : Dev nD) (t : Fin cfg1.N) (q : Fin 512) (r : Fin 128) (k : Fin 16) (o : Fin 64)
    (hq : q.val = 128 * (t.val % 4) + r.val) :
    (iblk1 V c 1 t : S128x16x64.Idx → Elt F .f32) (ix3 r k o) = (V c main_v3 : S512x16x64.Idx → Elt F .f32) (ix3 q k o) := by
  unfold iblk1
  rw [View.read_apply]
  show (V c main_v3 : S512x16x64.Idx → Elt F .f32) (((cfg1.win 1).blk t).view.emb (ix3 r k o)) = _
  refine congrArg _ ?_
  obtain ⟨-, -, -, e0, e1, e2, -⟩ := idx1_facts t
  funext a; apply Fin.ext
  match a with
  | ⟨0, _⟩ => show win1_1.index t (0 : Fin 3) * 128 + 1 * r.val = q.val; omega
  | ⟨1, _⟩ => show win1_1.index t (1 : Fin 3) * 16 + 1 * k.val = k.val; omega
  | ⟨2, _⟩ => show win1_1.index t (2 : Fin 3) * 64 + 1 * o.val = o.val; omega

/-- Two points that both write the result window's block back and differ write different blocks: both are ≡ 3 mod 4,
    so their quotients by 4, the blocks' row indices, differ. So their blocks share no index of the array. -/
theorem disjoint1_2 : ∀ t t' : Fin cfg1.N, (cfg1.win 2).flush t = true → (cfg1.win 2).flush t' = true → t ≠ t' →
    Disjoint ((cfg1.win 2).blk t).view.set ((cfg1.win 2).blk t').view.set := fun t t' hf hf' hne =>
  (cfg1.win 2).disjoint_blk fun h => hne (by
    have h3 : t.val % 4 = 3 := (flush1_2 t).mp hf
    have h3' : t'.val % 4 = 3 := (flush1_2 t').mp hf'
    obtain ⟨-, -, -, -, -, -, e0, -⟩ := idx1_facts t
    obtain ⟨-, -, -, -, -, -, e0', -⟩ := idx1_facts t'
    have h0 : win1_2.index t (0 : Fin 2) = win1_2.index t' (0 : Fin 2) := congrFun h (0 : Fin 2)
    apply Fin.ext; omega)

/-- Entry `(128 i + r, o)` of the result array after the region is entry `(r, o)` of what the accumulation holds after
    point `4 i + 3`, the point that writes block `i` back. -/
theorem pair_blocks (c : Dev nD) (i : Fin 4) (r : Fin 128) (o : Fin 64) :
    ((dat1 V c).arrAt 2 cfg1.N : S512x64.Idx → Elt F .f32) (ix2 (⟨128 * i.val + r.val, by omega⟩ : Fin 512) o)
      = outsAt1 V c (4 * i.val + 3) (lt_of_lt_of_eq (by omega) N_1.symm) (ix2 r o) := by
  have hlt : 4 * i.val + 3 < cfg1.N := lt_of_lt_of_eq (by omega) N_1.symm
  have hf : (cfg1.win 2).flush ⟨4 * i.val + 3, hlt⟩ = true :=
    (flush1_2 _).mpr (show (4 * i.val + 3) % 4 = 3 by omega)
  -- the entry lies in the block of point `4 i + 3`, at `(r, o)`
  have hemb : (ix2 (⟨128 * i.val + r.val, by omega⟩ : Fin 512) o : S512x64.Idx)
      = ((cfg1.win 2).blk ⟨4 * i.val + 3, hlt⟩).view.emb (ix2 r o) := by
    obtain ⟨-, -, -, -, -, -, e0, e1, -⟩ := idx1_facts ⟨4 * i.val + 3, hlt⟩
    have e0' : win1_2.index ⟨4 * i.val + 3, hlt⟩ (0 : Fin 2) = (4 * i.val + 3) / 4 := e0
    funext a; apply Fin.ext
    match a with
    | ⟨0, _⟩ => show 128 * i.val + r.val = win1_2.index ⟨4 * i.val + 3, hlt⟩ (0 : Fin 2) * 128 + 1 * r.val; omega
    | ⟨1, _⟩ => show o.val = win1_2.index ⟨4 * i.val + 3, hlt⟩ (1 : Fin 2) * 64 + 1 * o.val; omega
  rw [hemb]
  -- no other point that writes back touches that block, so the array holds there what the point wrote
  refine ((dat1 V c).arrAt_emb_eq_flushed 2 disjoint1_2 ⟨4 * i.val + 3, hlt⟩ hf (ix2 r o)).trans ?_
  show (dat1 V c).after 2 ⟨4 * i.val + 3, hlt⟩ (ix2 r o) = _
  rw [after1_2]

/-- The row blocks the grid's point `4 i + kv` reads: window 0 rows `128 i + r`, window 1 rows `128 kv + r`. -/
theorem iblk1_0_apply (c : Dev nD) (i kv : Fin 4) (r : Fin 128) (k : Fin 16) (o : Fin 64) :
    (iblk1 V c 0 ⟨4 * i.val + kv.val, lt_of_lt_of_eq (by omega) N_1.symm⟩ : S128x16x64.Idx → Elt F .f32) (ix3 r k o)
      = (V c main_v3 : S512x16x64.Idx → Elt F .f32) (ix3 (⟨128 * i.val + r.val, by omega⟩ : Fin 512) k o) :=
  iblk1_0_at V c _ _ r k o (show 128 * i.val + r.val = 128 * ((4 * i.val + kv.val) / 4) + r.val by omega)
theorem iblk1_1_apply (c : Dev nD) (i kv : Fin 4) (r : Fin 128) (k : Fin 16) (o : Fin 64) :
    (iblk1 V c 1 ⟨4 * i.val + kv.val, lt_of_lt_of_eq (by omega) N_1.symm⟩ : S128x16x64.Idx → Elt F .f32) (ix3 r k o)
      = (V c main_v3 : S512x16x64.Idx → Elt F .f32) (ix3 (⟨128 * kv.val + r.val, by omega⟩ : Fin 512) k o) :=
  iblk1_1_at V c _ _ r k o (show 128 * kv.val + r.val = 128 * ((4 * i.val + kv.val) % 4) + r.val by omega)

/-- The grid's point `4 i + kv` has coordinates `(i, kv)`. -/
theorem coords1_apply (i kv : Fin 4) :
    ((grid1.coords ⟨4 * i.val + kv.val, lt_of_lt_of_eq (by omega) N_1.symm⟩ 0).val = i.val)
      ∧ ((grid1.coords ⟨4 * i.val + kv.val, lt_of_lt_of_eq (by omega) N_1.symm⟩ 1).val = kv.val) := by
  obtain ⟨-, -, -, -, -, -, -, -, e0, e1⟩ := idx1_facts ⟨4 * i.val + kv.val, lt_of_lt_of_eq (by omega) N_1.symm⟩
  have e0' : (grid1.coords ⟨4 * i.val + kv.val, lt_of_lt_of_eq (by omega) N_1.symm⟩ 0).val = (4 * i.val + kv.val) / 4 := e0
  have e1' : (grid1.coords ⟨4 * i.val + kv.val, lt_of_lt_of_eq (by omega) N_1.symm⟩ 1).val = (4 * i.val + kv.val) % 4 := e1
  constructor
  · rw [e0']; omega
  · rw [e1']; omega

end Cert.KernelIdeal.Hand

end
-- ==== Proof.KI.Acc1Apply.lean ====
/-
  One step of region 1's accumulation read at an entry, at the ideal instance: the accumulator plus, over the 128 rows
  `b` of the second block, `exp (−∑ k, |x0 r k o − x1 b k o|)` times the mask that drops the pair lying on the
  diagonal of the whole array.
-/
import proofs.«156996_j33414845562989_1_alg».proof.Proof.KI.Region1
import proofs.«156996_j33414845562989_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Acc1

/-! ## The mask -/

/-- The row offset of a block plus a row inside it, as a 32-bit word. -/
theorem word_eq (p r : Nat) : BitVec.ofNat 32 p * 128#32 + BitVec.ofNat 32 r = BitVec.ofNat 32 (128 * p + r) := by
  rw [Nat.mul_comm, BitVec.ofNat_add, BitVec.ofNat_mul]

set_option maxHeartbeats 400000 in
/-- Two global rows below 512 are compared as words without wrapping: the mask's word converts to 0 on equal rows,
    to 1 otherwise. -/
theorem mask_word (p q r b : Nat) (hp : p < 4) (hq : q < 4) (hr : r < 128) (hb : b < 128) :
    Scalar.sitofp (F := Ideal) .f32 ((IntOp.cmpi .ne (BitVec.ofNat 32 (128 * p + r)) (BitVec.ofNat 32 (128 * q + b))).setWidth 32)
      = if 128 * p + r = 128 * q + b then (0 : EReal) else 1 := by
  rw [Ideal.scalar_sitofp_def]
  by_cases h : 128 * p + r = 128 * q + b
  · rw [if_pos h, h]
    simp [IntOp.cmpi]
  · rw [if_neg h]
    have hne : BitVec.ofNat 32 (128 * p + r) ≠ BitVec.ofNat 32 (128 * q + b) := by
      intro he
      have := congrArg BitVec.toNat he
      rw [BitVec.toNat_ofNat, BitVec.toNat_ofNat, Nat.mod_eq_of_lt (by omega), Nat.mod_eq_of_lt (by omega)] at this
      exact h this
    have hb' : (BitVec.ofNat 32 (128 * p + r) != BitVec.ofNat 32 (128 * q + b)) = true := bne_iff_ne.mpr hne
    simp [IntOp.cmpi, hb']

set_option maxHeartbeats 400000 in
/-- The mask at (r, b): zero exactly where the two global rows coincide. -/
theorem mask_apply (i : grid1.Coords) (r b : Fin 128) :
    (k1_pay3 (F := Ideal) i : S128x128.Idx → EReal) (ix2 r b)
      = if 128 * (i 0).val + r.val = 128 * (i 1).val + b.val then (0 : EReal) else 1 := by
  have h0 : (i 0).val < 4 := (i 0).isLt
  have h1 : (i 1).val < 4 := (i 1).isLt
  unfold k1_pay3
  show Scalar.sitofp (F := Ideal) .f32 ((IntOp.cmpi .ne
      (BitVec.ofNat 32 (i 0).val * 128#32 + iota .tc S128x128 32 [0] iota_S128x128_d0_w32 (ix2 r b))
      (BitVec.ofNat 32 (i 1).val * 128#32 + iota .tc S128x128 32 [1] iota_S128x128_d1_w32 (ix2 r b))).setWidth 32) = _
  rw [iota_single_apply, iota_single_apply, word_eq, word_eq]
  exact mask_word _ _ _ _ h0 h1 r.isLt b.isLt

/-! ## Layout operations at an index -/

section Layout
variable {α : Type}

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A [128, 1, 64] array broadcast to [128, 128, 64] reads, at (r, b, o), the operand at (r, 0, o). -/
theorem broadcastTo_row_apply (v : S128x1x64.Idx → α) (h : S128x1x64.Broadcasts S128x128x64) (r b : Fin 128) (o : Fin 64) :
    broadcastTo S128x128x64 v h (ix3 r b o) = v (ix3 r (0 : Fin 1) o) := by
  refine broadcastTo_apply v h (ix3 r b o) (ix3 r (0 : Fin 1) o) fun ax => ?_
  match ax with
  | ⟨0, _⟩ => rfl
  | ⟨1, _⟩ => rfl
  | ⟨2, _⟩ => rfl

/-- A [1, 128, 64] array broadcast to [128, 128, 64] reads, at (r, b, o), the operand at (0, b, o). -/
theorem broadcastTo_col_apply (v : S1x128x64.Idx → α) (h : S1x128x64.Broadcasts S128x128x64) (r b : Fin 128) (o : Fin 64) :
    broadcastTo S128x128x64 v h (ix3 r b o) = v (ix3 (0 : Fin 1) b o) := by
  refine broadcastTo_apply v h (ix3 r b o) (ix3 (0 : Fin 1) b o) fun ax => ?_
  match ax with
  | ⟨0, _⟩ => rfl
  | ⟨1, _⟩ => rfl
  | ⟨2, _⟩ => rfl

/-- A [128, 128, 1] array broadcast to [128, 128, 64] reads, at (r, b, o), the operand at (r, b, 0). -/
theorem broadcastTo_lane_apply (v : S128x128x1.Idx → α) (h : S128x128x1.Broadcasts S128x128x64) (r b : Fin 128) (o : Fin 64) :
    broadcastTo S128x128x64 v h (ix3 r b o) = v (ix3 r b (0 : Fin 1)) := by
  refine broadcastTo_apply v h (ix3 r b o) (ix3 r b (0 : Fin 1)) fun ax => ?_
  match ax with
  | ⟨0, _⟩ => rfl
  | ⟨1, _⟩ => rfl
  | ⟨2, _⟩ => rfl

end Layout

/-! ## One term of the norm -/

/-- One term of the norm: the two row slices at position k, spread over the pairs of rows, their difference's absolute
    value added to the running norm. -/
def step (k : Nat) (hs : S128x16x64.Slices ![0, k, 0] S128x1x64) (v15 v17 : FVec Ideal S128x16x64 .f32)
    (n : FVec Ideal S128x128x64 .f32) : FVec Ideal S128x128x64 .f32 :=
  addf n (absf (subf
    (broadcastTo S128x128x64 (shapeCast S128x1x64 (shapeCast S128x64 (extractStridedSlice S128x1x64 ![0, k, 0] v15 hs)
      shapeCasts_S128x1x64_S128x64) shapeCasts_S128x64_S128x1x64) broadcasts_S128x1x64_S128x128x64)
    (broadcastTo S128x128x64 (shapeCast S1x128x64 (shapeCast S128x64 (extractStridedSlice S128x1x64 ![0, k, 0] v17 hs)
      shapeCasts_S128x1x64_S128x64) shapeCasts_S128x64_S1x128x64) broadcasts_S1x128x64_S128x128x64)))

set_option maxHeartbeats 400000 in
/-- One term of the norm read at a pair of rows (r, b) and a feature o. -/
theorem step_apply (k : Nat) (hs : S128x16x64.Slices ![0, k, 0] S128x1x64) (kk : Fin 16) (hk : kk.val = k)
    (v15 v17 : FVec Ideal S128x16x64 .f32) (n : FVec Ideal S128x128x64 .f32) (r b : Fin 128) (o : Fin 64) :
    step k hs v15 v17 n (ix3 r b o)
      = n (ix3 r b o) + Cert.Spec.eabs ((v15 : S128x16x64.Idx → EReal) (ix3 r kk o) - (v17 : S128x16x64.Idx → EReal) (ix3 b kk o)) := by
  have hA : broadcastTo S128x128x64 (shapeCast S128x1x64 (shapeCast S128x64 (extractStridedSlice S128x1x64 ![0, k, 0] v15 hs)
      shapeCasts_S128x1x64_S128x64) shapeCasts_S128x64_S128x1x64) broadcasts_S128x1x64_S128x128x64 (ix3 r b o)
      = (v15 : S128x16x64.Idx → EReal) (ix3 r kk o) := by
    rw [shapeCast_shapeCast, broadcastTo_row_apply]
    exact slice3_axis1_apply k v15 hs r 0 o kk (by rw [hk]; rfl)
  have hB : broadcastTo S128x128x64 (shapeCast S1x128x64 (shapeCast S128x64 (extractStridedSlice S128x1x64 ![0, k, 0] v17 hs)
      shapeCasts_S128x1x64_S128x64) shapeCasts_S128x64_S1x128x64) broadcasts_S1x128x64_S128x128x64 (ix3 r b o)
      = (v17 : S128x16x64.Idx → EReal) (ix3 b kk o) := by
    rw [broadcastTo_col_apply]
    refine (shapeCast_ab_1ab_apply _ _ 0 b o).trans ?_
    refine (shapeCast_a1b_ab_apply _ _ b o).trans ?_
    exact slice3_axis1_apply k v17 hs b 0 o kk (by rw [hk]; rfl)
  unfold step
  show n (ix3 r b o) + Cert.Spec.eabs (_ - _) = _
  rw [hA, hB]

/-! ## The payloads as nests of terms -/

/-- The first two terms of the norm, from zero. -/
theorem pay6_eq (x0 x1 : Vec Ideal S128x16x64 .f32) :
    k1_pay6 (F := Ideal) x0 x1
      = step 1 slices_S128x16x64_o0_1_0_S128x1x64 (k1_pay4 x0) (k1_pay5 x1)
          (step 0 slices_S128x16x64_o0_0_0_S128x1x64 (k1_pay4 x0) (k1_pay5 x1)
            (broadcast S128x128x64 (Scalar.ofBits (F := Ideal) .f32 0x00000000#32))) := rfl

/-- Terms 2 to 6 of the norm. -/
theorem pay9_eq (x0 x1 : Vec Ideal S128x16x64 .f32) (v40 : FVec Ideal S128x128x64 .f32) :
    k1_pay9 (F := Ideal) (k1_pay4 x0) (k1_pay5 x1) v40 (k1_pay7 x1) (k1_pay8 x0)
      = step 6 slices_S128x16x64_o0_6_0_S128x1x64 (k1_pay4 x0) (k1_pay5 x1)
          (step 5 slices_S128x16x64_o0_5_0_S128x1x64 (k1_pay4 x0) (k1_pay5 x1)
            (step 4 slices_S128x16x64_o0_4_0_S128x1x64 (k1_pay4 x0) (k1_pay5 x1)
              (step 3 slices_S128x16x64_o0_3_0_S128x1x64 (k1_pay4 x0) (k1_pay5 x1)
                (step 2 slices_S128x16x64_o0_2_0_S128x1x64 (k1_pay4 x0) (k1_pay5 x1) v40)))) := rfl

/-- Terms 7 to 12 of the norm. -/
theorem pay11_eq (v15 v17 : FVec Ideal S128x16x64 .f32) (v95 : FVec Ideal S128x128x64 .f32) :
    k1_pay11 (F := Ideal) v15 v17 v95 (k1_pay10 v15 v17)
      = step 12 slices_S128x16x64_o0_12_0_S128x1x64 v15 v17
          (step 11 slices_S128x16x64_o0_11_0_S128x1x64 v15 v17
            (step 10 slices_S128x16x64_o0_10_0_S128x1x64 v15 v17
              (step 9 slices_S128x16x64_o0_9_0_S128x1x64 v15 v17
                (step 8 slices_S128x16x64_o0_8_0_S128x1x64 v15 v17
                  (step 7 slices_S128x16x64_o0_7_0_S128x1x64 v15 v17 v95))))) := rfl

/-- The last three terms of the norm, the weights, the mask, the sum over the second block's rows and the
    accumulation. -/
theorem pay1_eq (M : FVec Ideal S128x128 .f32) (v15 v17 : FVec Ideal S128x16x64 .f32) (v161 : FVec Ideal S128x128x64 .f32)
    (a : Vec Ideal S128x64 .f32) :
    k1_pay1 (F := Ideal) M v15 v17 v161 (k1_pay12 v15) (k1_pay13 v17) a
      = addf (shapeCast S128x64 a shapeCasts_S128x64_S128x64)
          (multiReduction .add [1] S128x64
            (mulf (exp (subf (broadcast S128x128x64 (Scalar.ofBits (F := Ideal) .f32 0x00000000#32))
                (step 15 slices_S128x16x64_o0_15_0_S128x1x64 v15 v17
                  (step 14 slices_S128x16x64_o0_14_0_S128x1x64 v15 v17
                    (step 13 slices_S128x16x64_o0_13_0_S128x1x64 v15 v17 v161)))))
              (broadcastTo S128x128x64 (shapeCast S128x128x1 M shapeCasts_S128x128_S128x128x1) broadcasts_S128x128x1_S128x128x64))
            0x00000000#32 reduces_S128x128x64_S128x64 (.inl rfl) rfl) := rfl

/-! ## The norm, the body as one expression, the sum over the second block's rows -/

/-- The same-shape casts of the two loaded blocks are the blocks. -/
theorem pay4_eq (x : Vec Ideal S128x16x64 .f32) : k1_pay4 (F := Ideal) x = (x : FVec Ideal S128x16x64 .f32) := shapeCast_self _ _
theorem pay5_eq (x : Vec Ideal S128x16x64 .f32) : k1_pay5 (F := Ideal) x = (x : FVec Ideal S128x16x64 .f32) := shapeCast_self _ _

/-- The zero the norm starts from, and the exponent is subtracted from. -/
theorem zero_apply (j : S128x128x64.Idx) :
    (broadcast S128x128x64 (Scalar.ofBits (F := Ideal) .f32 0x00000000#32) : S128x128x64.Idx → EReal) j = 0 :=
  Ideal.ofBits_zero_f32

/-- The whole norm: the sixteen terms in the order the body adds them. -/
def norm16 (v15 v17 : FVec Ideal S128x16x64 .f32) : FVec Ideal S128x128x64 .f32 :=
  step 15 slices_S128x16x64_o0_15_0_S128x1x64 v15 v17
    (step 14 slices_S128x16x64_o0_14_0_S128x1x64 v15 v17
      (step 13 slices_S128x16x64_o0_13_0_S128x1x64 v15 v17
        (step 12 slices_S128x16x64_o0_12_0_S128x1x64 v15 v17
          (step 11 slices_S128x16x64_o0_11_0_S128x1x64 v15 v17
            (step 10 slices_S128x16x64_o0_10_0_S128x1x64 v15 v17
              (step 9 slices_S128x16x64_o0_9_0_S128x1x64 v15 v17
                (step 8 slices_S128x16x64_o0_8_0_S128x1x64 v15 v17
                  (step 7 slices_S128x16x64_o0_7_0_S128x1x64 v15 v17
                    (step 6 slices_S128x16x64_o0_6_0_S128x1x64 v15 v17
                      (step 5 slices_S128x16x64_o0_5_0_S128x1x64 v15 v17
                        (step 4 slices_S128x16x64_o0_4_0_S128x1x64 v15 v17
                          (step 3 slices_S128x16x64_o0_3_0_S128x1x64 v15 v17
                            (step 2 slices_S128x16x64_o0_2_0_S128x1x64 v15 v17
                              (step 1 slices_S128x16x64_o0_1_0_S128x1x64 v15 v17
                                (step 0 slices_S128x16x64_o0_0_0_S128x1x64 v15 v17
                                  (broadcast S128x128x64 (Scalar.ofBits (F := Ideal) .f32 0x00000000#32)))))))))))))))))

/-- Sixteen terms added one after another from zero are the sum over the sixteen positions. -/
theorem sum16 (e : Fin 16 → EReal) :
    0 + e 0 + e 1 + e 2 + e 3 + e 4 + e 5 + e 6 + e 7 + e 8 + e 9 + e 10 + e 11 + e 12 + e 13 + e 14 + e 15 = ∑ k : Fin 16, e k := by
  simp only [Fin.sum_univ_castSucc, Fin.sum_univ_zero]
  rfl

set_option maxHeartbeats 400000 in
/-- The norm read at a pair of rows and a feature. -/
theorem norm16_apply (v15 v17 : FVec Ideal S128x16x64 .f32) (r b : Fin 128) (o : Fin 64) :
    norm16 v15 v17 (ix3 r b o)
      = ∑ k : Fin 16, Cert.Spec.eabs ((v15 : S128x16x64.Idx → EReal) (ix3 r k o) - (v17 : S128x16x64.Idx → EReal) (ix3 b k o)) := by
  unfold norm16
  rw [step_apply 15 _ 15 rfl, step_apply 14 _ 14 rfl, step_apply 13 _ 13 rfl, step_apply 12 _ 12 rfl,
    step_apply 11 _ 11 rfl, step_apply 10 _ 10 rfl, step_apply 9 _ 9 rfl, step_apply 8 _ 8 rfl,
    step_apply 7 _ 7 rfl, step_apply 6 _ 6 rfl, step_apply 5 _ 5 rfl, step_apply 4 _ 4 rfl,
    step_apply 3 _ 3 rfl, step_apply 2 _ 2 rfl, step_apply 1 _ 1 rfl, step_apply 0 _ 0 rfl, zero_apply]
  exact sum16 (fun k => Cert.Spec.eabs ((v15 : S128x16x64.Idx → EReal) (ix3 r k o) - (v17 : S128x16x64.Idx → EReal) (ix3 b k o)))

/-- The body of one step as one expression over the two blocks, the mask and the accumulator. -/
theorem acc1_eq (i : grid1.Coords) (x0 x1 : Vec Ideal S128x16x64 .f32) (a : Vec Ideal S128x64 .f32) :
    acc1 (F := Ideal) i x0 x1 a
      = addf (shapeCast S128x64 a shapeCasts_S128x64_S128x64)
          (multiReduction .add [1] S128x64
            (mulf (exp (subf (broadcast S128x128x64 (Scalar.ofBits (F := Ideal) .f32 0x00000000#32)) (norm16 x0 x1)))
              (broadcastTo S128x128x64 (shapeCast S128x128x1 (k1_pay3 (F := Ideal) i) shapeCasts_S128x128_S128x128x1) broadcasts_S128x128x1_S128x128x64))
            0x00000000#32 reduces_S128x128x64_S128x64 (.inl rfl) rfl) := by
  unfold acc1
  rw [pay6_eq, pay9_eq, pay11_eq, pay1_eq, pay4_eq, pay5_eq]
  rfl

/-- The index the sum over the second block's rows inserts: (r, b, o). -/
theorem lift_eq (r : Fin 128) (o : Fin 64) (b : Fin 128) :
    reduces_S128x128x64_S128x64.lift (ix2 r o) b = ix3 r b o := by
  funext a
  match a with
  | ⟨0, _⟩ => rfl
  | ⟨1, _⟩ => rfl
  | ⟨2, _⟩ => rfl

/-- The sum over the second block's rows, read at (r, o). -/
theorem lanesum_apply (src : FVec Ideal S128x128x64 .f32) (r : Fin 128) (o : Fin 64) :
    multiReduction .add [1] S128x64 src 0x00000000#32 reduces_S128x128x64_S128x64 (.inl rfl) rfl (ix2 r o)
      = ∑ b : Fin 128, (src : S128x128x64.Idx → EReal) (ix3 r b o) := by
  refine (Ideal.multiReduction_add_single src 0x00000000#32 reduces_S128x128x64_S128x64 (.inl rfl) rfl (ix2 r o)).trans ?_
  exact Finset.sum_congr rfl (fun b _ => congrArg src (lift_eq r o b))

end Acc1

open Acc1

/-- The cleared accumulator is zero everywhere. -/
theorem pay2_apply (y : S128x64.Idx) : (k1_pay2 (F := Ideal) : S128x64.Idx → EReal) y = 0 :=
  Ideal.ofBits_zero_f32

set_option maxHeartbeats 400000 in
/-- One step at entry `(r, o)`, at grid coordinates `i` (both below 4). -/
theorem acc1_apply (i : grid1.Coords) (x0 x1 : Vec Ideal S128x16x64 .f32) (acc : Vec Ideal S128x64 .f32) (r : Fin 128) (o : Fin 64) :
    (acc1 (F := Ideal) i x0 x1 acc : S128x64.Idx → EReal) (ix2 r o)
      = (acc : S128x64.Idx → EReal) (ix2 r o)
        + ∑ b : Fin 128, Ideal.exp (-(∑ k : Fin 16, Cert.Spec.eabs ((x0 : S128x16x64.Idx → EReal) (ix3 r k o) - (x1 : S128x16x64.Idx → EReal) (ix3 b k o))))
            * (if 128 * (i 0).val + r.val = 128 * (i 1).val + b.val then (0 : EReal) else 1) := by
  rw [acc1_eq, addf_apply, shapeCast_self, lanesum_apply]
  refine congrArg (fun t => (acc : S128x64.Idx → EReal) (ix2 r o) + t) (Finset.sum_congr rfl fun b _ => ?_)
  rw [mulf_apply, broadcastTo_lane_apply, shapeCast_ab_ab1_apply, mask_apply]
  show Ideal.exp ((broadcast S128x128x64 (Scalar.ofBits (F := Ideal) .f32 0x00000000#32) : S128x128x64.Idx → EReal) (ix3 r b o)
      - norm16 x0 x1 (ix3 r b o)) * _ = _
  rw [zero_apply, zero_sub, norm16_apply]

end Cert.KernelIdeal.Hand

end
-- ==== Proof.KI.PairValue.lean ====
/-
  The value region 1 leaves in its result array, at the ideal instance: the pairwise weights of the rows of the array
  it reads, summed over all rows.
-/
import proofs.«156996_j33414845562989_1_alg».proof.Proof.KI.PairBlocks
import proofs.«156996_j33414845562989_1_alg».proof.Proof.KI.Acc1Apply
import proofs.«156996_j33414845562989_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace PairValue

/-! ## Rows of the whole array as (block, row in the block) -/

/-- A row `j < 512` is `128 kv + b` for exactly one block `kv < 4` and one row `b < 128` of the block. -/
def rowEquiv : Fin 4 × Fin 128 ≃ Fin 512 where
  toFun p := ⟨128 * p.1.val + p.2.val, by omega⟩
  invFun j := (⟨j.val / 128, by omega⟩, ⟨j.val % 128, by omega⟩)
  left_inv p := by
    obtain ⟨kv, b⟩ := p
    refine Prod.ext (Fin.ext ?_) (Fin.ext ?_)
    · show (128 * kv.val + b.val) / 128 = kv.val
      omega
    · show (128 * kv.val + b.val) % 128 = b.val
      omega
  right_inv j := Fin.ext (by
    show 128 * (j.val / 128) + j.val % 128 = j.val
    omega)

theorem rowEquiv_apply (kv : Fin 4) (b : Fin 128) :
    rowEquiv (kv, b) = (⟨128 * kv.val + b.val, by omega⟩ : Fin 512) := rfl

/-- A sum over the 512 rows is the sum of the four blocks' sums. -/
theorem sum_rows {A : Type*} [AddCommMonoid A] (f : Fin 512 → A) :
    ∑ j : Fin 512, f j
      = ∑ b : Fin 128, f (rowEquiv (0, b)) + ∑ b : Fin 128, f (rowEquiv (1, b))
        + ∑ b : Fin 128, f (rowEquiv (2, b)) + ∑ b : Fin 128, f (rowEquiv (3, b)) := by
  rw [← Equiv.sum_comp rowEquiv f, Fintype.sum_prod_type, Fin.sum_univ_four]

/-! ## The weights of an array `M : [512, 16, 64]` -/

/-- What the grid's point `(i, kv)` adds at entry `(r, o)`: over the rows `b` of block `kv`, the weight of the pair of
    rows `128 i + r` and `128 kv + b`, dropped where the two are the same row. -/
def blockSum (M : S512x16x64.Idx → EReal) (i kv : Fin 4) (r : Fin 128) (o : Fin 64) : EReal :=
  ∑ b : Fin 128, Ideal.exp (-(∑ k : Fin 16, Cert.Spec.eabs
      (M (ix3 (⟨128 * i.val + r.val, by omega⟩ : Fin 512) k o) - M (ix3 (⟨128 * kv.val + b.val, by omega⟩ : Fin 512) k o))))
    * (if 128 * i.val + r.val = 128 * kv.val + b.val then (0 : EReal) else 1)

/-- The weight of the pair of rows `b`, `a` at feature `o`, dropped where `b = a`: the summand of the pairwise sum. -/
def pairTerm (M : S512x16x64.Idx → EReal) (a : Fin 512) (o : Fin 64) (b : Fin 512) : EReal :=
  Ideal.exp (-(∑ k : Fin 16, Cert.Spec.eabs (M (ix3 b k o) - M (ix3 a k o)))) * (if b = a then (0 : EReal) else 1)

/-- The pairwise sum of `M` read with its last two axes exchanged, as the sum of the summands. -/
theorem pair_eq (M : S512x16x64.Idx → EReal) (a : Fin 512) (o : Fin 64) :
    Cert.Spec.pair (fun j => M (ix3 (j 0) (j 2) (j 1))) a o = ∑ b : Fin 512, pairTerm M a o b := rfl

set_option maxHeartbeats 400000 in
/-- A block's sum is the sum of the summands over the block's rows: the distance is symmetric, and the two rows are
    the same row exactly when their numbers are equal. -/
theorem blockSum_eq (M : S512x16x64.Idx → EReal) (i kv : Fin 4) (r : Fin 128) (o : Fin 64) :
    blockSum M i kv r o
      = ∑ b : Fin 128, pairTerm M (⟨128 * i.val + r.val, by omega⟩ : Fin 512) o (rowEquiv (kv, b)) := by
  unfold blockSum
  refine Finset.sum_congr rfl (fun b _ => ?_)
  rw [rowEquiv_apply]
  unfold pairTerm
  refine congrArg₂ (· * ·) (congrArg Ideal.exp (congrArg Neg.neg
    (Finset.sum_congr rfl fun k _ => Cert.Spec.eabs_sub_comm _ _))) (if_congr ?_ rfl rfl)
  rw [Fin.mk.injEq]
  exact eq_comm

variable (V : (c : Dev nD) → (b : Ref sig .tc) → Buf (Elt Ideal) ((c : Thread nD τ).loc b))

/-! ## One step of the accumulation, in terms of the array the region reads -/

set_option maxHeartbeats 400000 in
/-- One step at the point `4 i + kv`, read at entry `(r, o)`: the accumulator plus the block's sum. -/
theorem acc_step (c : Dev nD) (i kv : Fin 4) (acc : Vec Ideal S128x64 .f32) (r : Fin 128) (o : Fin 64) :
    (acc1 (F := Ideal) (grid1.coords ⟨4 * i.val + kv.val, lt_of_lt_of_eq (by omega) N_1.symm⟩)
        (iblk1 V c 0 ⟨4 * i.val + kv.val, lt_of_lt_of_eq (by omega) N_1.symm⟩)
        (iblk1 V c 1 ⟨4 * i.val + kv.val, lt_of_lt_of_eq (by omega) N_1.symm⟩) acc : S128x64.Idx → EReal) (ix2 r o)
      = (acc : S128x64.Idx → EReal) (ix2 r o) + blockSum (V c main_v3) i kv r o := by
  refine (acc1_apply (grid1.coords ⟨4 * i.val + kv.val, lt_of_lt_of_eq (by omega) N_1.symm⟩)
    (iblk1 V c 0 ⟨4 * i.val + kv.val, lt_of_lt_of_eq (by omega) N_1.symm⟩)
    (iblk1 V c 1 ⟨4 * i.val + kv.val, lt_of_lt_of_eq (by omega) N_1.symm⟩) acc r o).trans ?_
  obtain ⟨h0, h1⟩ := coords1_apply i kv
  unfold blockSum
  rw [h0, h1]
  simp only [iblk1_0_apply, iblk1_1_apply]

/-! ## The four steps that fill a block of the result -/

/-- The accumulation does not depend on how its point's number is written. -/
theorem outs_congr (c : Dev nD) {n m : ℕ} (e : n = m) (hn : n < cfg1.N) (hm : m < cfg1.N) :
    outsAt1 V c n hn = outsAt1 V c m hm := by
  subst e; rfl

set_option maxHeartbeats 400000 in
/-- At the first point of a row of the grid (`kv = 0`) the accumulation is the first block's sum. -/
theorem outs_A (c : Dev nD) (i kv : Fin 4) (hkv : kv.val = 0) (r : Fin 128) (o : Fin 64) :
    (outsAt1 V c (4 * i.val + kv.val) (lt_of_lt_of_eq (by omega) N_1.symm) : S128x64.Idx → EReal) (ix2 r o)
      = blockSum (V c main_v3) i kv r o := by
  have h := outsAt1_A V c ⟨4 * i.val + kv.val, lt_of_lt_of_eq (by omega) N_1.symm⟩
    (by show (4 * i.val + kv.val) % 4 = 0; omega)
  rw [show outsAt1 V c (4 * i.val + kv.val) (lt_of_lt_of_eq (by omega) N_1.symm) = _ from h]
  refine (acc_step V c i kv _ r o).trans ?_
  rw [pay2_apply, zero_add]

set_option maxHeartbeats 400000 in
/-- At a later point of the row (`kv = kv' + 1`) it is what the point before left plus the block's sum. -/
theorem outs_B (c : Dev nD) (i kv kv' : Fin 4) (hkv : kv.val = kv'.val + 1) (r : Fin 128) (o : Fin 64) :
    (outsAt1 V c (4 * i.val + kv.val) (lt_of_lt_of_eq (by omega) N_1.symm) : S128x64.Idx → EReal) (ix2 r o)
      = (outsAt1 V c (4 * i.val + kv'.val) (lt_of_lt_of_eq (by omega) N_1.symm) : S128x64.Idx → EReal) (ix2 r o)
        + blockSum (V c main_v3) i kv r o := by
  have h := outsAt1_B V c ⟨4 * i.val + kv.val, lt_of_lt_of_eq (by omega) N_1.symm⟩
    (by show ¬(4 * i.val + kv.val) % 4 = 0; omega)
  rw [show outsAt1 V c (4 * i.val + kv.val) (lt_of_lt_of_eq (by omega) N_1.symm) = _ from h]
  refine (acc_step V c i kv _ r o).trans ?_
  exact congrArg (fun v : Vec Ideal S128x64 .f32 => (v : S128x64.Idx → EReal) (ix2 r o) + blockSum (V c main_v3) i kv r o)
    (outs_congr V c (by show 4 * i.val + kv.val - 1 = 4 * i.val + kv'.val; omega) _ _)

set_option maxHeartbeats 400000 in
/-- After the last point of the row the accumulation is the sum of the four blocks' sums. -/
theorem outs_last (c : Dev nD) (i : Fin 4) (r : Fin 128) (o : Fin 64) :
    (outsAt1 V c (4 * i.val + 3) (lt_of_lt_of_eq (by omega) N_1.symm) : S128x64.Idx → EReal) (ix2 r o)
      = blockSum (V c main_v3) i 0 r o + blockSum (V c main_v3) i 1 r o
        + blockSum (V c main_v3) i 2 r o + blockSum (V c main_v3) i 3 r o := by
  have e3 := outs_B V c i 3 2 rfl r o
  have e2 := outs_B V c i 2 1 rfl r o
  have e1 := outs_B V c i 1 0 rfl r o
  have e0 := outs_A V c i 0 rfl r o
  exact e3.trans (by rw [e2, e1, e0])

/-! ## The result array -/

set_option maxHeartbeats 400000 in
/-- Entry `(128 i + r, o)` of the result array. -/
theorem pair_value_aux (c : Dev nD) (i : Fin 4) (r : Fin 128) (o : Fin 64) :
    ((dat1 (F := Ideal) V c).arrAt 2 cfg1.N : S512x64.Idx → EReal) (ix2 (⟨128 * i.val + r.val, by omega⟩ : Fin 512) o)
      = Cert.Spec.pair (fun j => (V c main_v3 : S512x16x64.Idx → EReal) (ix3 (j 0) (j 2) (j 1)))
          (⟨128 * i.val + r.val, by omega⟩ : Fin 512) o := by
  refine (pair_blocks V c i r o).trans ?_
  refine (outs_last V c i r o).trans ?_
  refine Eq.trans ?_ (pair_eq (V c main_v3) _ o).symm
  rw [sum_rows (pairTerm (V c main_v3) _ o), blockSum_eq, blockSum_eq, blockSum_eq, blockSum_eq]

end PairValue

variable (V : (c : Dev nD) → (b : Ref sig .tc) → Buf (Elt Ideal) ((c : Thread nD τ).loc b))

/-- After the region, entry `(a, o)` of the result array is the pairwise sum of row `a` and feature `o` of the array the
    region reads, that array `[512, 16, 64]` being read with its last two axes exchanged. -/
theorem pair_value (c : Dev nD) (a : Fin 512) (o : Fin 64) :
    ((dat1 (F := Ideal) V c).arrAt 2 cfg1.N : S512x64.Idx → EReal) (ix2 a o)
      = Cert.Spec.pair (fun j => (V c main_v3 : S512x16x64.Idx → EReal) (ix3 (j 0) (j 2) (j 1))) a o := by
  -- Write the row as `128 i + r`.
  obtain ⟨i, r, rfl⟩ : ∃ (i : Fin 4) (r : Fin 128), a = (⟨128 * i.val + r.val, by omega⟩ : Fin 512) :=
    ⟨⟨a.val / 128, by omega⟩, ⟨a.val % 128, by omega⟩,
      Fin.ext (by show a.val = 128 * (a.val / 128) + a.val % 128; omega)⟩
  exact PairValue.pair_value_aux V c i r o

end Cert.KernelIdeal.Hand

end
-- ==== Proof.KI.Final.lean ====
/-
  The kernel program's result at the ideal instance: the input `x` beside the pairwise sums of its projection. Read off
  the contents followed through the run: the concatenation of `x` and region 1's result; region 1 reads the transposed
  reshape of region 0's result, which is the matrix product of `x` and the reshaped `T`.
-/
import proofs.«156996_j33414845562989_1_alg».proof.Proof.KI.Frame
import proofs.«156996_j33414845562989_1_alg».proof.Proof.KI.ValueProj
import proofs.«156996_j33414845562989_1_alg».proof.Proof.KI.PairValue
import proofs.«156996_j33414845562989_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## The host stretches' results as layout operations on what they read -/

set_option maxHeartbeats 400000 in
/-- Region 1's input array is the transposition, last two axes exchanged, of the reshape of region 0's result array. -/
theorem W3_v3 (c : Dev nD) :
    (W3 (F := Ideal) m c (Proc.devRef .tc main_v3) : S512x16x64.Idx → EReal)
      = transpose S512x16x64 [0, 2, 1]
          (shapeCast S512x64x16 (W2 (F := Ideal) m c (Proc.devRef .tc main_v1) : S512x1024.Idx → EReal) shapeCasts_S512x1024_S512x64x16)
          transposes_S512x64x16_S512x16x64_0_2_1 := by
  show StableHlo.after hostOps1 _ (Proc.devRef .tc main_v3) = _
  after_results
  rfl

set_option maxHeartbeats 400000 in
/-- Region 0's weight array is the reshape of `T` as launched. -/
theorem W1_v0 (c : Dev nD) :
    (W1 (F := Ideal) m c (Proc.devRef .tc main_v0) : S1024x1024.Idx → EReal)
      = shapeCast S1024x1024 (m ((c : Thread nD τ).loc main_arg1) : S1024x64x16.Idx → EReal) shapeCasts_S1024x64x16_S1024x1024 := by
  show StableHlo.after hostOps0 _ (Proc.devRef .tc main_v0) = _
  after_results
  rfl

/-- Region 0's row array is `x` as launched: the first reshape does not write it. -/
theorem W1_arg0 (c : Dev nD) :
    W1 (F := Ideal) m c (Proc.devRef .tc main_arg0) = m ((c : Thread nD τ).loc main_arg0) :=
  StableHlo.after_of_writes_sub hostOps0 _ hostOps0_writes (by decide)

set_option maxHeartbeats 400000 in
/-- The result array is the concatenation of `x` and region 1's result array as the last stretch finds them. -/
theorem W5_v5 (c : Dev nD) :
    (W5 (F := Ideal) m c (Proc.devRef .tc main_v5) : S512x1088.Idx → EReal)
      = concatenate S512x1088 1 [⟨S512x1024, (W4 (F := Ideal) m c (Proc.devRef .tc main_arg0) : S512x1024.Idx → EReal)⟩,
          ⟨S512x64, (W4 (F := Ideal) m c (Proc.devRef .tc main_v4) : S512x64.Idx → EReal)⟩]
          concatenates_S512x1024_S512x64_S512x1088_d1 := by
  show StableHlo.after hostOps2 _ (Proc.devRef .tc main_v5) = _
  after_results

/-! ## The two reshapes at an index -/

/-- Entry `(n, o, k)` of a `[512, 1024]` array read as `[512, 64, 16]` is its entry `(n, 16 o + k)`: both sit at row-major
    position `1024 n + 16 o + k`. -/
theorem reshape_rows_apply (x : S512x1024.Idx → EReal) (h : S512x1024.ShapeCasts S512x64x16)
    (n : Fin 512) (o : Fin 64) (k : Fin 16) (q : Fin 1024) (hq : q.val = 16 * o.val + k.val) :
    shapeCast S512x64x16 x h (ix3 n o k) = x (ix2 n q) :=
  shapeCast_apply x h _ _ (by
    rw [Shape.rowMajor_val_two, Shape.rowMajor_val_three]
    show n.val * 1024 + q.val = (n.val * 64 + o.val) * 16 + k.val
    omega)

/-- Entry `(k, j)` of a `[1024, 64, 16]` array read as `[1024, 1024]` is its entry `(k, j / 16, j % 16)`: both sit at
    row-major position `1024 k + j`. -/
theorem reshape_weight_apply (T : S1024x64x16.Idx → EReal) (h : S1024x64x16.ShapeCasts S1024x1024)
    (k : Fin 1024) (j : Fin 1024) (o : Fin 64) (l : Fin 16) (ho : o.val = j.val / 16) (hl : l.val = j.val % 16) :
    shapeCast S1024x1024 T h (ix2 k j) = T (ix3 k o l) :=
  shapeCast_apply T h _ _ (by
    rw [Shape.rowMajor_val_three, Shape.rowMajor_val_two]
    show (k.val * 64 + o.val) * 16 + l.val = k.val * 1024 + j.val
    omega)

/-! ## Region 1's input is the specification's projection -/

set_option maxHeartbeats 400000 in
/-- Region 0's weight array, as a function of the index, is the specification's reading of `T` as a matrix. -/
theorem VV1_v0_eq (c : Dev nD) :
    (VV1 (F := Ideal) m c main_v0 : S1024x1024.Idx → EReal)
      = fun j => (m ((c : Thread nD τ).loc main_arg1) : S1024x64x16.Idx → EReal)
          (ix3 (j 0) (⟨(j 1).val / 16, by have h : (j 1).val < 1024 := (j 1).isLt; show (j 1).val / 16 < 64; omega⟩ : Fin 64)
            (⟨(j 1).val % 16, by show (j 1).val % 16 < 16; omega⟩ : Fin 16)) := by
  show (W1 (F := Ideal) m c (Proc.devRef .tc main_v0) : S1024x1024.Idx → EReal) = _
  rw [W1_v0]
  funext j
  obtain ⟨k, q, rfl⟩ : ∃ (k : Fin 1024) (q : Fin 1024), j = ix2 k q := ⟨j 0, j 1, eq_ix2 j⟩
  exact reshape_weight_apply _ _ k q _ _ rfl rfl

set_option maxHeartbeats 400000 in
/-- Region 1 reads `M n k o = P n (16 o + k)`: read with its last two axes exchanged it is the specification's
    `mOf x T`. -/
theorem v3_value (c : Dev nD) (j : (⟨3, ![512, 64, 16]⟩ : Shape).Idx) :
    (VV3 (F := Ideal) m c main_v3 : S512x16x64.Idx → EReal) (ix3 (j 0) (j 2) (j 1))
      = Cert.Spec.mOf (m ((c : Thread nD τ).loc main_arg0)) (m ((c : Thread nD τ).loc main_arg1)) j := by
  show (W3 (F := Ideal) m c (Proc.devRef .tc main_v3) : S512x16x64.Idx → EReal) (ix3 (j 0) (j 2) (j 1)) = _
  rw [W3_v3]
  -- the transposition exchanges the last two coordinates; the reshape reads column `16 o + k`
  refine (transpose_ix3_021_apply _ _ (j 0) (j 2) (j 1)).trans ?_
  refine (reshape_rows_apply _ _ (j 0) (j 1) (j 2)
    (⟨16 * (j 1).val + (j 2).val, by have h1 : (j 1).val < 64 := (j 1).isLt; have h2 : (j 2).val < 16 := (j 2).isLt; show 16 * (j 1).val + (j 2).val < 1024; omega⟩ : Fin 1024) rfl).trans ?_
  -- region 0's result array is the product of the arrays it found
  rw [W2_arr m c 2]
  refine (proj_value (VV1 (F := Ideal) m) c (j 0) _).trans ?_
  unfold Cert.Spec.mOf
  rw [VV1_v0_eq m c]
  rw [show VV1 (F := Ideal) m c main_arg0 = m ((c : Thread nD τ).loc main_arg0) from W1_arg0 m c]
  rfl

set_option maxHeartbeats 400000 in
/-- Region 1's result array is the specification's pairwise sums of the projection. -/
theorem W4_v4_eq (c : Dev nD) :
    (W4 (F := Ideal) m c (Proc.devRef .tc main_v4) : S512x64.Idx → EReal)
      = Cert.Spec.ob (m ((c : Thread nD τ).loc main_arg0)) (m ((c : Thread nD τ).loc main_arg1)) := by
  rw [W4_v4]
  funext i
  obtain ⟨a, o, rfl⟩ : ∃ (a : Fin 512) (o : Fin 64), i = ix2 a o := ⟨i 0, i 1, eq_ix2 i⟩
  refine (pair_value (VV3 (F := Ideal) m) c a o).trans ?_
  exact congrArg (fun M => Cert.Spec.pair M a o) (funext (v3_value m c))

set_option maxHeartbeats 400000 in
/-- The result array at the end of the run. -/
theorem final_v5 (c : Dev nD) :
    (W5 (F := Ideal) m c (Proc.devRef .tc main_v5) : S512x1088.Idx → EReal)
      = concatenate S512x1088 1 [⟨S512x1024, m ((c : Thread nD τ).loc main_arg0)⟩,
          ⟨S512x64, Cert.Spec.ob (m ((c : Thread nD τ).loc main_arg0)) (m ((c : Thread nD τ).loc main_arg1))⟩]
          concatenates_S512x1024_S512x64_S512x1088_d1 := by
  rw [W5_v5, W4_v4_eq, W4_main_arg0]

end Cert.KernelIdeal.Hand

end
-- ==== Proof.RefValue.lean ====
/-
  The reference program's result, at the ideal instance: its last 64 columns are the pairwise sums of the projection,
  read one operation at a time off the reference's run.
-/
import proofs.«156996_j33414845562989_1_alg».proof.Proof.Gen.ReferenceIdeal.Read
import proofs.«156996_j33414845562989_1_alg».proof.Proof.Spec
import Idealize.ShloMosaic.Lib.ValueLayout

set_option maxRecDepth 16384

noncomputable section

open scoped BigOperators

namespace Cert.ReferenceIdeal.RefValue

open Idealize.ShloMosaic Idealize.ShloMosaic.TcCoe Idealize.ShloMosaic.ValueIdx
open Cert.ReferenceIdeal Cert.ReferenceIdeal.Gen Cert.ReferenceIdeal.Read

/-- The left operand's index under the two reshapes: row `n`, column `k`. -/
private theorem lidx_eq (i : S512x64x16.Idx) (k : Fin 1024) :
    lidx_main_v1 (idx_main_v2 i) k = ix2 (i 0) k := by
  funext a
  refine Fin.ext ?_
  have h0 : (i 0).val < 512 := (i 0).isLt
  have h1 : (i 1).val < 64 := (i 1).isLt
  have h2 : (i 2).val < 16 := (i 2).isLt
  match a with
  | ⟨0, _⟩ => show (((i 0).val * 64 + (i 1).val) * 16 + (i 2).val) / 1024 = (i 0).val; omega
  | ⟨1, _⟩ => rfl

/-- The right operand's index under the two reshapes: row `k`, and column `16 o + k'` split back into `(o, k')`. -/
private theorem ridx_eq (i : S512x64x16.Idx) (k : Fin 1024) :
    idx_main_v0 (ridx_main_v1 (idx_main_v2 i) k)
      = ix3 k (⟨(16 * (i 1).val + (i 2).val) / 16, by have h1 : (i 1).val < 64 := (i 1).isLt; have h2 : (i 2).val < 16 := (i 2).isLt; omega⟩ : Fin 64)
          (⟨(16 * (i 1).val + (i 2).val) % 16, by omega⟩ : Fin 16) := by
  funext a
  refine Fin.ext ?_
  have h0 : (i 0).val < 512 := (i 0).isLt
  have h1 : (i 1).val < 64 := (i 1).isLt
  have h2 : (i 2).val < 16 := (i 2).isLt
  have hk : k.val < 1024 := k.isLt
  match a with
  | ⟨0, _⟩ =>
    show (k.val * 1024 + (((i 0).val * 64 + (i 1).val) * 16 + (i 2).val) % 1024) / 1024 = k.val
    omega
  | ⟨1, _⟩ =>
    show (k.val * 1024 + (((i 0).val * 64 + (i 1).val) * 16 + (i 2).val) % 1024) / 16 % 64 = (16 * (i 1).val + (i 2).val) / 16
    omega
  | ⟨2, _⟩ =>
    show (k.val * 1024 + (((i 0).val * 64 + (i 1).val) * 16 + (i 2).val) % 1024) % 16 = (16 * (i 1).val + (i 2).val) % 16
    omega

/-- The reference's reshaped projection is the specification's. -/
theorem ref_m (x0 : (⟨S512x1024, .f32⟩ : BufTy).Contents (Elt Ideal)) (x1 : (⟨S1024x64x16, .f32⟩ : BufTy).Contents (Elt Ideal)) :
    (val_main_v2 (F := Ideal) x0 x1 : S512x64x16.Idx → EReal) = Cert.Spec.mOf x0 x1 := by
  funext i
  rw [val_main_v2_apply, val_main_v1_apply]
  unfold Cert.Spec.mOf Cert.Spec.proj
  refine Finset.sum_congr rfl fun k _ => ?_
  rw [val_main_v0_apply, lidx_eq, ridx_eq]
  rfl

/-- The word `0x3F800000` is the float `1`. -/
private theorem ofBits_one_f32 : Ideal.ofBits .f32 0x3F800000#32 = 1 := by
  simp [Ideal.ofBits, Ideal.ieee, -EReal.coe_mul]; norm_num

/-- A comparison for equality of two different words is the word `0`. -/
private theorem cmpi_eq_of_ne {w : Nat} {x y : BitVec w} (h : x ≠ y) : IntOp.cmpi .eq x y = 0#1 := by
  show BitVec.ofBool (x == y) = 0#1
  rw [beq_eq_false_iff_ne.mpr h]
  rfl

/-- A comparison for equality of a word with itself is the word `1`. -/
private theorem cmpi_eq_self {w : Nat} (x : BitVec w) : IntOp.cmpi .eq x x = 1#1 := by
  show BitVec.ofBool (x == x) = 1#1
  rw [beq_self_eq_true]
  rfl

/-- Numbers below `512` are told apart by their 32-bit words. -/
private theorem ofNat32_inj {a b : Nat} (ha : a < 512) (hb : b < 512) (h : BitVec.ofNat 32 a = BitVec.ofNat 32 b) : a = b := by
  have h' := congrArg BitVec.toNat h
  rw [BitVec.toNat_ofNat, BitVec.toNat_ofNat] at h'
  omega

/-- The diagonal mask at row `a`, column `b` (any feature `o`): one less the indicator of `a + 0 = b`, so `0` on the
    diagonal and `1` off it. -/
private theorem mask_at (a b : Fin 512) (o : Fin 64) :
    (val_main_v21 (F := Ideal) (ix3 a b o) : EReal) = if b = a then (0 : EReal) else 1 := by
  rw [val_main_v21_apply, val_main_v20_apply, val_main_v19_apply, val_main_v18_apply, val_main_cst_0_apply,
    val_main_v17_apply, val_main_v16_apply, val_main_v15_apply, val_main_v12_apply, val_main_v14_apply,
    val_main_c_apply, val_main_v13_apply]
  show (Ideal.ofBits .f32 0x3F800000#32 : EReal)
      - (((IntOp.cmpi .eq (IntOp.addi (BitVec.ofNat 32 a.val) 0#32) (BitVec.ofNat 32 b.val)).toNat : ℝ) : EReal) = _
  have hadd : IntOp.addi (BitVec.ofNat 32 a.val) 0#32 = BitVec.ofNat 32 a.val := BitVec.add_zero _
  rw [ofBits_one_f32, hadd]
  by_cases h : b = a
  · rw [if_pos h, h, cmpi_eq_self]
    show (1 : EReal) - (((1 : Nat) : ℝ) : EReal) = 0
    rw [Nat.cast_one, EReal.coe_one]
    show ((1 : ℝ) : EReal) - ((1 : ℝ) : EReal) = 0
    rw [← EReal.coe_sub, sub_self, EReal.coe_zero]
  · rw [if_neg h, cmpi_eq_of_ne (fun e => h (Fin.ext (ofNat32_inj a.isLt b.isLt e)).symm)]
    show (1 : EReal) - (((0 : Nat) : ℝ) : EReal) = 1
    rw [Nat.cast_zero, EReal.coe_zero, sub_zero]

/-- The difference tensor at `(a, b, o, k)`: the projection's row `b` less its row `a`, at feature `o`, lane `k`. -/
private theorem diff_at (x0 : (⟨S512x1024, .f32⟩ : BufTy).Contents (Elt Ideal)) (x1 : (⟨S1024x64x16, .f32⟩ : BufTy).Contents (Elt Ideal))
    (m : S512x64x16.Idx → EReal) (hm : (val_main_v2 (F := Ideal) x0 x1 : S512x64x16.Idx → EReal) = m)
    (a b : Fin 512) (o : Fin 64) (k : Fin 16) :
    (val_main_v7 (F := Ideal) x0 x1 (ix4 a b o k) : EReal) = m (ix3 b o k) - m (ix3 a o k) := by
  rw [val_main_v7_apply, val_main_v5_apply, val_main_v3_apply, val_main_v6_apply, val_main_v4_apply, hm]
  have e1 : idx_main_v3 (idx_main_v5 (ix4 a b o k)) = ix3 b o k := by
    funext d; match d with | ⟨0, _⟩ => rfl | ⟨1, _⟩ => rfl | ⟨2, _⟩ => rfl
  have e2 : idx_main_v4 (idx_main_v6 (ix4 a b o k)) = ix3 a o k := by
    funext d; match d with | ⟨0, _⟩ => rfl | ⟨1, _⟩ => rfl | ⟨2, _⟩ => rfl
  rw [e1, e2]
  rfl

/-- The weight at `(a, b, o)`: `exp` of minus the 1-norm of the difference of rows `b` and `a` at feature `o`. -/
private theorem weight_at (x0 : (⟨S512x1024, .f32⟩ : BufTy).Contents (Elt Ideal)) (x1 : (⟨S1024x64x16, .f32⟩ : BufTy).Contents (Elt Ideal))
    (m : S512x64x16.Idx → EReal) (hm : (val_main_v2 (F := Ideal) x0 x1 : S512x64x16.Idx → EReal) = m)
    (a b : Fin 512) (o : Fin 64) :
    (val_main_v11 (F := Ideal) x0 x1 (ix3 a b o) : EReal)
      = Ideal.exp (-(∑ k : Fin 16, Cert.Spec.eabs (m (ix3 b o k) - m (ix3 a o k)))) := by
  rw [val_main_v11_apply, val_main_v10_apply, val_main_v9_apply, val_main_cst_apply]
  have es : ∀ k : Fin 16, (val_main_v8 (F := Ideal) x0 x1 (idx_main_v9 (ix3 a b o) k) : EReal)
      = Cert.Spec.eabs (m (ix3 b o k) - m (ix3 a o k)) := by
    intro k
    have e : idx_main_v9 (ix3 a b o) k = ix4 a b o k := by
      funext d; match d with | ⟨0, _⟩ => rfl | ⟨1, _⟩ => rfl | ⟨2, _⟩ => rfl | ⟨3, _⟩ => rfl
    rw [e, val_main_v8_apply, diff_at x0 x1 m hm]
    rfl
  show Ideal.exp (-((Ideal.ofBits .f32 0x00000000#32 : EReal) + ∑ k : Fin 16, (val_main_v8 (F := Ideal) x0 x1 (idx_main_v9 (ix3 a b o) k) : EReal))) = _
  rw [Ideal.ofBits_zero_f32, zero_add, Finset.sum_congr rfl fun k _ => es k]

/-- The reference's pairwise sums are the specification's. -/
theorem ref_ob (x0 : (⟨S512x1024, .f32⟩ : BufTy).Contents (Elt Ideal)) (x1 : (⟨S1024x64x16, .f32⟩ : BufTy).Contents (Elt Ideal)) :
    (val_main_v23 (F := Ideal) x0 x1 : S512x64.Idx → EReal) = Cert.Spec.ob x0 x1 := by
  funext i
  obtain ⟨a, o, rfl⟩ : ∃ (a : Fin 512) (o : Fin 64), i = ix2 a o := ⟨i 0, i 1, eq_ix2 i⟩
  rw [val_main_v23_apply, val_main_cst_1_apply]
  have et : ∀ b : Fin 512, (val_main_v22 (F := Ideal) x0 x1 (idx_main_v23 (ix2 a o) b) : EReal)
      = Ideal.exp (-(∑ k : Fin 16, Cert.Spec.eabs (Cert.Spec.mOf x0 x1 (ix3 b o k) - Cert.Spec.mOf x0 x1 (ix3 a o k))))
          * (if b = a then (0 : EReal) else 1) := by
    intro b
    have e : idx_main_v23 (ix2 a o) b = ix3 a b o := by
      funext d; match d with | ⟨0, _⟩ => rfl | ⟨1, _⟩ => rfl | ⟨2, _⟩ => rfl
    rw [e, val_main_v22_apply, weight_at x0 x1 _ (ref_m x0 x1), mask_at]
    rfl
  show (Ideal.ofBits .f32 0x00000000#32 : EReal) + ∑ b : Fin 512, (val_main_v22 (F := Ideal) x0 x1 (idx_main_v23 (ix2 a o) b) : EReal)
      = Cert.Spec.pair (Cert.Spec.mOf x0 x1) a o
  rw [Ideal.ofBits_zero_f32, zero_add, Finset.sum_congr rfl fun b _ => et b]
  rfl

end Cert.ReferenceIdeal.RefValue

end
-- ==== Proof.lean ====
/-
  The certificate's claims. The kernel program computes the projection `x · T` block by block (region 0), reshapes and
  transposes it on the host, and in region 1 accumulates, for every row `a` and feature `o`, the sum over the other rows
  `b` of `exp (−‖m a o − m b o‖₁)`, 128 rows of `b` at a time; the reference computes the same sum in one reduction
  over all 512 rows. At the ideal instance both results are the input `x` beside the array `Cert.Spec.ob x T`
  (Proof/Spec.lean): the kernel's by following the buffers' contents through @main (Proof/KI), the reference's by
  reading its operations one at a time (Proof/RefValue.lean). The three frames: the two kernel programs' from the same
  run, the reference's from its run. The idealization rewrote no operation, so there is nothing to preserve.
-/
import proofs.«156996_j33414845562989_1_alg».proof.Defs
import proofs.«156996_j33414845562989_1_alg».proof.Proof.Gen.Kernel
import proofs.«156996_j33414845562989_1_alg».proof.Proof.Gen.KernelIdeal
import proofs.«156996_j33414845562989_1_alg».proof.Proof.Gen.ReferenceIdeal
import proofs.«156996_j33414845562989_1_alg».proof.Proof.Gen.ReferenceIdeal.Run
import proofs.«156996_j33414845562989_1_alg».proof.Proof.Gen.ReferenceIdeal.Read
import proofs.«156996_j33414845562989_1_alg».proof.Proof.Gen.Pre_finite_inputs
import proofs.«156996_j33414845562989_1_alg».proof.Proof.KB.Frame
import proofs.«156996_j33414845562989_1_alg».proof.Proof.KI.Frame
import proofs.«156996_j33414845562989_1_alg».proof.Proof.KI.Final
import proofs.«156996_j33414845562989_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with `x` beside `Cert.Spec.ob x T`. -/
theorem algebraic : Cert.algebraic_KernelIdeal_ReferenceIdeal := by
  intro m ρ m' ρ' _ hagree
  refine ⟨fun c => concatenate Cert.KernelIdeal.S512x1088 1
      [⟨Cert.KernelIdeal.S512x1024, m ((c : Thread Cert.KernelIdeal.nD Cert.KernelIdeal.τ).loc Cert.KernelIdeal.main_arg0)⟩,
        ⟨Cert.KernelIdeal.S512x64, Cert.Spec.ob (m ((c : Thread Cert.KernelIdeal.nD Cert.KernelIdeal.τ).loc Cert.KernelIdeal.main_arg0))
          (m ((c : Thread Cert.KernelIdeal.nD Cert.KernelIdeal.τ).loc Cert.KernelIdeal.main_arg1))⟩]
      Cert.KernelIdeal.Facts₀.concatenates_S512x1024_S512x64_S512x1088_d1, ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v5 (by decide))).trans (Cert.KernelIdeal.Hand.final_v5 m c)
    · exact (h c _ (Cert.KernelIdeal.Hand.mem_uc Cert.KernelIdeal.main_arg0 (by decide))).trans (Cert.KernelIdeal.Hand.W5_main_arg0 m c)
    · exact (h c _ (Cert.KernelIdeal.Hand.mem_uc Cert.KernelIdeal.main_arg1 (by decide))).trans (Cert.KernelIdeal.Hand.W5_main_arg1 m c)
  · refine (θ_run Cert.ReferenceIdeal.defs _ _).mono (fun r h c => ⟨(h c).1.trans ?_, (h c).2⟩)
      (Cert.ReferenceIdeal.Value.run (F := Ideal) m' ρ')
    rw [(hagree c).1, (hagree c).2]
    refine (Cert.ReferenceIdeal.Read.val_main_v24_eq _ _).trans ?_
    unfold Cert.ReferenceIdeal.Read.val_main_v24
    rw [Cert.ReferenceIdeal.RefValue.ref_ob]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
